-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1000 : Shape := ⟨3, ![64, 512, 1000]⟩
abbrev S64x512 : Shape := ⟨2, ![64, 512]⟩
abbrev S_ : Shape := ⟨0, ![]⟩

class Facts : Prop where
  bcast_S_S64x512x1000 : S_.BroadcastsInDim S64x512x1000 (![] : Fin 0 → Fin S64x512x1000.rank)
  reducesTo_S64x512x1000_S_d0_1_2 : S64x512x1000.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S64x512x1000 .f32) (main_arg1 : IVec S64x512 32) : IVec S_ 1 :=
  let main_v0 : FVec F S64x512x1000 .f32 := Host.absf main_arg0
  let main_cst : FVec F S_ .f32 := constant S_ .f32 0x7F800000#32
  let main_v1 : FVec F S64x512x1000 .f32 := broadcastInDim S64x512x1000 ![] bcast_S_S64x512x1000 main_cst
  let main_v2 : IVec S64x512x1000 1 := cmpf .olt main_v0 main_v1
  let main_c : IVec S_ 1 := constantI S_ 1 1#1
  let main_v3 : IVec S_ 1 := (fun x v => Host.reduce IntOp.andi x v reducesTo_S64x512x1000_S_d0_1_2 h_S_) main_v2 main_c
  let main_c_0 : IVec S_ 32 := constantI S_ 32 0#32
  let main_v4 : IVec S64x512 32 := broadcastInDim S64x512 ![] bcast_S_S64x512 main_c_0
  let main_v5 : IVec S64x512 1 := cmpi .sge main_arg1 main_v4
  let main_c_1 : IVec S_ 32 := constantI S_ 32 1000#32
  let main_v6 : IVec S64x512 32 := broadcastInDim S64x512 ![] bcast_S_S64x512 main_c_1
  let main_v7 : IVec S64x512 1 := cmpi .slt main_arg1 main_v6
  let main_v8 : IVec S64x512 1 := andi main_v5 main_v7
  let main_c_2 : IVec S_ 1 := constantI S_ 1 1#1
  let main_v9 : IVec S_ 1 := (fun x v => Host.reduce IntOp.andi x v reducesTo_S64x512_S_d0_1 h_S_) main_v8 main_c_2
  let main_v10 : IVec S_ 1 := andi main_v3 main_v9
  main_v10
-- ==== Kernel.lean ====
abbrev S64x512x1000 : Shape := ⟨3, ![64, 512, 1000]⟩
abbrev S64x512 : Shape := ⟨2, ![64, 512]⟩
abbrev S32768x1000 : Shape := ⟨2, ![32768, 1000]⟩
abbrev S_ : Shape := ⟨0, ![]⟩
abbrev S32768x1 : Shape := ⟨2, ![32768, 1]⟩
abbrev S1000 : Shape := ⟨1, ![1000]⟩
abbrev S1x1000 : Shape := ⟨2, ![1, 1000]⟩
abbrev S128x128 : Shape := ⟨2, ![128, 128]⟩
abbrev S2048x1000 : Shape := ⟨2, ![2048, 1000]⟩
abbrev S2048x1 : Shape := ⟨2, ![2048, 1]⟩
abbrev S8x128 : Shape := ⟨2, ![8, 128]⟩
abbrev S1x1 : Shape := ⟨2, ![1, 1]⟩
abbrev S1024x1000 : Shape := ⟨2, ![1024, 1000]⟩
abbrev S1024x1 : Shape := ⟨2, ![1024, 1]⟩
abbrev S1024 : Shape := ⟨1, ![1024]⟩
abbrev S1 : Shape := ⟨1, ![1]⟩

abbrev nBuf : Space → Nat
  | .hbm => 17
  | .vmem => 7
  | .smem => 0
  | _ => 0

abbrev bufTy : (tb : Table) → Fin (tcTables nBuf tb) → BufTy
  | .hbm, ⟨0, _⟩ => ⟨S64x512x1000, .f32⟩
  | .hbm, ⟨1, _⟩ => ⟨S64x512, .i32⟩
  | .hbm, ⟨2, _⟩ => ⟨S32768x1000, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S64x512, .i32⟩
  | .hbm, ⟨7, _⟩ => ⟨S64x512, .i32⟩
  | .hbm, ⟨8, _⟩ => ⟨S_, .i32⟩
  | .hbm, ⟨9, _⟩ => ⟨S64x512, .i32⟩
  | .hbm, ⟨10, _⟩ => ⟨S64x512, .i32⟩
  | .hbm, ⟨11, _⟩ => ⟨S32768x1, .i32⟩
  | .hbm, ⟨12, _⟩ => ⟨S1000, .i32⟩
  | .hbm, ⟨13, _⟩ => ⟨S1x1000, .i32⟩
  | .hbm, ⟨14, _⟩ => ⟨S128x128, .f32⟩
  | .hbm, ⟨15, _⟩ => ⟨S_, .f32⟩
  | .hbm, ⟨16, _⟩ => ⟨S_, .f32⟩
  | .local _ .vmem, ⟨0, _⟩ => ⟨S2048x1000, .f32⟩
  | .local _ .vmem, ⟨1, _⟩ => ⟨S2048x1000, .f32⟩
  | .local _ .vmem, ⟨2, _⟩ => ⟨S2048x1, .i32⟩
  | .local _ .vmem, ⟨3, _⟩ => ⟨S2048x1, .i32⟩
  | .local _ .vmem, ⟨4, _⟩ => ⟨S1x1000, .i32⟩
  | .local _ .vmem, ⟨5, _⟩ => ⟨S8x128, .f32⟩
  | .local _ .vmem, ⟨6, _⟩ => ⟨S8x128, .f32⟩
  | _, _ => ⟨S64x512x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c2_i32 : BitVec 32 := 2#32
  let v1 : BitVec 32 := Scalar.addi c0_i32 c2_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1024_i32 : BitVec 32 := 1024#32
  let v15 : BitVec 32 := Scalar.muli arg5 c1024_i32
  v15
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c1024_i32 : BitVec 32 := 1024#32
  let v15 : BitVec 32 := Scalar.muli arg5 c1024_i32
  let v16 : BitVec 32 := v15
  let v17 : Index := Scalar.indexCast v16
  let c0_5 : Index := 0#32
  ![v17.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c1024_i32 : BitVec 32 := 1024#32
  let v15 : BitVec 32 := Scalar.muli arg5 c1024_i32
  let v16 : BitVec 32 := v15
  let v20 : Index := Scalar.indexCast v16
  let c0_6 : Index := 0#32
  ![v20.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1000 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x1000_S32768x1000 : S64x512x1000.ShapeCasts S32768x1000
  bcast_S_S64x512 : S_.BroadcastsInDim S64x512 (![] : Fin 0 → Fin S64x512.rank)
  shapeCasts_S64x512_S32768x1 : S64x512.ShapeCasts S32768x1
  shapeCasts_S1000_S1x1000 : S1000.ShapeCasts S1x1000
  h_S1024x1000 : 0 < S1024x1000.numel
  shapeCasts_S1024x1000_S1024x1000 : S1024x1000.ShapeCasts S1024x1000
  h_S1024x1 : 0 < S1024x1.numel
  shapeCasts_S1024x1_S1024x1 : S1024x1.ShapeCasts S1024x1
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  broadcasts_S1024x1_S1024x1000 : S1024x1.Broadcasts S1024x1000
  reduces_S1024x1000_S1024 : S1024x1000.Reduces [1] S1024
  shapeCasts_S1024_S1024x1 : S1024.ShapeCasts S1024x1
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  h_S_ : 0 < S_.numel
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x1000.size a ≤ S2048x1000.size a
  k0_off2_inb : ∀ k0_t1 : Fin k0_t1_loop.trips, ∀ a, (k0_off2 k0_t1) a + S1024x1.size a ≤ S2048x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1000.size a ≤ S32768x1000.size a
  hwx0_0 : ∀ i : grid0.Coords, EltTy.bits .f32 = 32 ∨ (Rect.block (s := S32768x1000) S2048x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .i32 = 32 ∨ (Rect.block (s := S32768x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .i32 = 32 ∨ (Rect.block (s := S1x1000) S1x1000.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S128x128.size a
  hwx0_3 : ∀ i : grid0.Coords, EltTy.bits .f32 = 32 ∨ (Rect.block (s := S128x128) S8x128.size (cc0_transform_3 i) (hinb0_3 i)).WholeWords (EltTy.packing .f32)

variable [Facts₀]

abbrev win0_0 : Pipeline.Window sig grid0 :=
  Pipeline.Window.ofSpec (Memref.whole main_v0) S2048x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x1000 : Shape := ⟨3, ![64, 512, 1000]⟩
abbrev S64x512 : Shape := ⟨2, ![64, 512]⟩
abbrev S64x512x1 : Shape := ⟨3, ![64, 512, 1]⟩
abbrev S_ : Shape := ⟨0, ![]⟩
abbrev S64x512x1x1 : Shape := ⟨4, ![64, 512, 1, 1]⟩
abbrev S1 : Shape := ⟨1, ![1]⟩
abbrev S1x1x1x1 : Shape := ⟨4, ![1, 1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S64x512x1000, .f32⟩
  | .hbm, ⟨1, _⟩ => ⟨S64x512, .i32⟩
  | .hbm, ⟨2, _⟩ => ⟨S64x512x1, .i32⟩
  | .hbm, ⟨3, _⟩ => ⟨S_, .i32⟩
  | .hbm, ⟨4, _⟩ => ⟨S64x512x1, .i32⟩
  | .hbm, ⟨5, _⟩ => ⟨S64x512x1, .i1⟩
  | .hbm, ⟨6, _⟩ => ⟨S_, .i32⟩
  | .hbm, ⟨7, _⟩ => ⟨S64x512x1, .i32⟩
  | .hbm, ⟨8, _⟩ => ⟨S64x512x1, .i32⟩
  | .hbm, ⟨9, _⟩ => ⟨S64x512x1, .i32⟩
  | .hbm, ⟨10, _⟩ => ⟨S64x512x1x1, .i32⟩
  | .hbm, ⟨11, _⟩ => ⟨S1, .i32⟩
  | .hbm, ⟨12, _⟩ => ⟨S_, .i32⟩
  | .hbm, ⟨13, _⟩ => ⟨S64x512x1x1, .i32⟩
  | .hbm, ⟨14, _⟩ => ⟨S64x512x1x1, .i1⟩
  | .hbm, ⟨15, _⟩ => ⟨S1x1x1x1, .i32⟩
  | .hbm, ⟨16, _⟩ => ⟨S64x512x1x1, .i32⟩
  | .hbm, ⟨17, _⟩ => ⟨S64x512x1x1, .i1⟩
  | .hbm, ⟨18, _⟩ => ⟨S64x512x1x1, .i1⟩
  | .hbm, ⟨19, _⟩ => ⟨S_, .i1⟩
  | .hbm, ⟨20, _⟩ => ⟨S64x512x1, .i1⟩
  | .hbm, ⟨21, _⟩ => ⟨S64x512x1, .f32⟩
  | .hbm, ⟨22, _⟩ => ⟨S_, .f32⟩
  | .hbm, ⟨23, _⟩ => ⟨S64x512x1, .f32⟩
  | .hbm, ⟨24, _⟩ => ⟨S64x512x1, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S_, .f32⟩
  | .hbm, ⟨29, _⟩ => ⟨S_, .f32⟩
  | _, _ => ⟨S64x512x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  shapeCasts_S64x512x1_S64x512x1x1 : S64x512x1.ShapeCasts S64x512x1x1
  bcast_S_S64x512x1x1 : S_.BroadcastsInDim S64x512x1x1 (![] : Fin 0 → Fin S64x512x1x1.rank)
  bcast_S1_S1x1x1x1_3 : S1.BroadcastsInDim S1x1x1x1 (![3] : Fin 1 → Fin S1x1x1x1.rank)
  bcast_S1x1x1x1_S64x512x1x1_0_1_2_3 : S1x1x1x1.BroadcastsInDim S64x512x1x1 (![0, 1, 2, 3] : Fin 4 → Fin S64x512x1x1.rank)
  reducesTo_S64x512x1x1_S64x512x1_d3 : S64x512x1x1.ReducesTo [3] S64x512x1
  h_S_ : 0 < S_.numel
  shapeCasts_S64x512x1_S64x512 : S64x512x1.ShapeCasts S64x512
  reducesTo_S64x512_S_d0_1 : S64x512.ReducesTo [0, 1] S_
  gather_S64x512x1000_S64x512x1x1_S64x512x1_n_2_01_01_2_3_111_wf : GatherDims.WF S64x512x1000 S64x512x1x1 S64x512x1 [] [2] [0, 1] [2] [0, 1] 3 ![1, 1, 1]

variable [Facts₀]

def gather_S64x512x1000_S64x512x1x1_S64x512x1_n_2_01_01_2_3_111 : GatherDims S64x512x1000 S64x512x1x1 S64x512x1 where
  offsetDims := []
  collapsedSliceDims := [2]
  operandBatchingDims := [0, 1]
  startIndicesBatchingDims := [0, 1]
  startIndexMap := [2]
  indexVectorDim := 3
  sliceSizes := ![1, 1, 1]
  wf := gather_S64x512x1000_S64x512x1x1_S64x512x1_n_2_01_01_2_3_111_wf

class Facts : Prop extends Facts₀ where

variable [Facts]
-- ==== Proof.Spec.lean ====
/-
  The specification, with no program in sight. Inputs: a probability array x over [64, 512, 1000] read as extended reals,
  and a label array t over [64, 512] of 32-bit words. Position (b, s) has the log-probability
  log x[b, s, t[b, s]], and the loss is minus the sum of the 32768 log-probabilities.

  The flattened row n = 512 b + s is position (n / 512, n % 512). A tile is 2048 consecutive rows, taken as two slices of
  1024 rows; what a tile accumulates, starting from zero, is (0 - the first slice's sum) and then (0 - the second slice's sum).
-/
import Idealize.ShloMosaic.PureOps.Ideal
import Idealize.ShloMosaic.Lib.ValueIdx

noncomputable section

namespace Cert.Nll

open Idealize.ShloMosaic Idealize.ShloMosaic.ValueIdx

abbrev SX : Shape := ⟨3, ![64, 512, 1000]⟩
abbrev ST : Shape := ⟨2, ![64, 512]⟩
abbrev SOut : Shape := ⟨2, ![128, 128]⟩

/-- The class a label word names among the 1000 classes: the word's value when it is below 1000. -/
def col (w : BitVec 32) : Fin 1000 := ⟨w.toNat % 1000, Nat.mod_lt _ (by decide)⟩

theorem col_val_of_lt {w : BitVec 32} (h : w.toNat < 1000) : (col w).val = w.toNat := Nat.mod_eq_of_lt h

/-- The log-probability of position (b, s): the log of the row's entry at the position's label. -/
def logp (x : SX.Idx → EReal) (t : ST.Idx → BitVec 32) (b : Fin 64) (s : Fin 512) : EReal :=
  Ideal.log (x (ix3 b s (col (t (ix2 b s)))))

/-- The loss: minus the sum of all the log-probabilities (the sum taken from zero, as a host reduction takes it). -/
def loss (x : SX.Idx → EReal) (t : ST.Idx → BitVec 32) : EReal :=
  -(0 + ∑ b : Fin 64, ∑ s : Fin 512, logp x t b s)

/-- The log-probability of the flattened row n = 512 b + s (zero past the last row). -/
def logpRow (x : SX.Idx → EReal) (t : ST.Idx → BitVec 32) (n : ℕ) : EReal :=
  if h : n < 32768 then logp x t ⟨n / 512, by omega⟩ ⟨n % 512, Nat.mod_lt _ (by decide)⟩ else 0

/-- What tile i (rows 2048 i … 2048 i + 2047) accumulates from zero over its two slices of 1024 rows. -/
def tileAcc (x : SX.Idx → EReal) (t : ST.Idx → BitVec 32) (i : ℕ) : EReal :=
  (0 + (0 - ∑ r : Fin 1024, logpRow x t (2048 * i + r.val))) + (0 - ∑ r : Fin 1024, logpRow x t (2048 * i + 1024 + r.val))

/-- The [128, 128] array of per-tile partial losses: tile i's accumulated value at entry (8 i, 0), zero elsewhere. -/
def partials (x : SX.Idx → EReal) (t : ST.Idx → BitVec 32) : SOut.Idx → EReal := fun p =>
  if (p 0).val % 8 = 0 ∧ (p 1).val = 0 then tileAcc x t ((p 0).val / 8) else 0

end Cert.Nll

end
-- ==== Proof.LibOneHotTake.lean ====
/-
  GENERAL LEMMAS (no program imported): a row entry taken at a label two ways, and the words that make the two agree.

  A Pallas kernel often cannot lower `take_along_axis` and takes `x[p, l]` instead as the row summed against the one-hot
  mask `[k = l]` of the lane counter; jnp's own `take_along_axis(x, l[:, None], axis=1)` prints as a wrap of negative
  labels, an in-range mask folded by `and`, a batched `stablehlo.gather` that clamps its start index, and a select
  against a fill word. This file reads each piece at an index:
    * `oneHot_sum`            — the masked sum over the C columns is the entry at the label, for a label below C;
    * `toNat_lt_of_signed_range`, `slt_zero_of_small`, `sge_zero_of_small`, `sle_of_small`, `clamp_of_small`
                                — a 32-bit word in [0, n) signed is below n unsigned; such a word is not negative, is at
                                  most any bound it is at most, and is its own value after the gather's signed clamp;
    * `foldl_andi_ones`, `reduce_andi_of_forall`
                                — a `stablehlo.reduce` by `and` from 1 over bits that are all 1 is 1 (the converse of
                                  the library's `Host.reduce_andi_eq_one`);
    * `rowTakeDims`, `gather_rowTake_apply`
                                — the gather of `take_along_axis` along axis 1 of an [N, C] operand (batching axis 0,
                                  collapsed and start-indexed axis 1, start indices [N, 1, 1]) reads, at row p, the
                                  operand at (p, start index of row p read signed and clamped into [0, C - 1]).
-/
import Idealize.ShloMosaic.PureOps.Reduce
import Idealize.ShloMosaic.Lib.ValueIdx
import Idealize.ShloMosaic.Lib.StableHlo.Predicate

noncomputable section

namespace Cert.LibOneHotTake

open Idealize.ShloMosaic Idealize.ShloMosaic.ValueIdx

/-! ## The one-hot masked sum -/

/-- Column k's word is the label exactly when k is the label's value (C columns, C below 2³²). -/
theorem col_word_eq_iff {C : Nat} (hC : C ≤ 2 ^ 32) (l : BitVec 32) (hl : l.toNat < C) (k : Fin C) :
    BitVec.ofNat 32 k.val = l ↔ k = ⟨l.toNat, hl⟩ := by
  constructor
  · intro h
    apply Fin.ext
    have := congrArg BitVec.toNat h
    rw [BitVec.toNat_ofNat, Nat.mod_eq_of_lt (by have := k.isLt; omega)] at this
    exact this
  · intro h
    subst h
    exact BitVec.eq_of_toNat_eq (by rw [BitVec.toNat_ofNat, Nat.mod_eq_of_lt (by omega)])

/-- THE ONE-HOT SUM. In any additive commutative monoid, a row summed against the mask "column k's word is the label",
    with `z = 0` in the masked-out places, is the row's entry at the label, for a label below the column count: every
    other column contributes zero. (On the extended reals `0 + a = a` for every a, so nothing is asked of the row.) -/
theorem oneHot_sum {M : Type} [AddCommMonoid M] {C : Nat} (hC : C ≤ 2 ^ 32) (x : Fin C → M) (z : M) (hz : z = 0)
    (l : BitVec 32) (hl : l.toNat < C) :
    ∑ k : Fin C, Scalar.select (IntOp.cmpi .eq (BitVec.ofNat 32 k.val) l) (x k) z = x ⟨l.toNat, hl⟩ := by
  rw [Finset.sum_eq_single (⟨l.toNat, hl⟩ : Fin C)]
  · have h1 : IntOp.cmpi .eq (BitVec.ofNat 32 (⟨l.toNat, hl⟩ : Fin C).val) l = 1#1 :=
      StableHlo.Predicate.cmpi_eq_iff.mpr ((col_word_eq_iff hC l hl ⟨l.toNat, hl⟩).mpr rfl)
    rw [h1, select_one]
  · intro k _ hk
    have h0 : IntOp.cmpi .eq (BitVec.ofNat 32 k.val) l = 0#1 :=
      eq_zero_of_ne_one fun h => hk ((col_word_eq_iff hC l hl k).mp (StableHlo.Predicate.cmpi_eq_iff.mp h))
    rw [h0, select_zero, hz]
  · intro h; exact absurd (Finset.mem_univ _) h

/-! ## Small non-negative words -/

/-- A word in [0, n) as a signed number is below n as an unsigned one. -/
theorem toNat_lt_of_signed_range (w : BitVec 32) (n : Nat) (hn : n < 2 ^ 31) (h0 : IntOp.cmpi .sge w 0#32 = 1#1)
    (h1 : IntOp.cmpi .slt w (BitVec.ofNat 32 n) = 1#1) : w.toNat < n := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  rw [e0] at h0
  rw [StableHlo.Predicate.toInt_ofNat_small n hn] at h1
  have hw := w.isLt
  have hi := BitVec.toInt_eq_toNat_cond w
  by_cases hc : 2 * w.toNat < 2 ^ 32
  · rw [if_pos hc] at hi; omega
  · rw [if_neg hc] at hi; omega

/-- A word below 2³¹ is not negative, -/
theorem slt_zero_of_small (w : BitVec 32) (h : w.toNat < 2 ^ 31) : IntOp.cmpi .slt w 0#32 = 0#1 :=
  eq_zero_of_ne_one fun e => by
    have := (StableHlo.Predicate.slt_iff_toNat h (by decide)).mp e
    simp at this
/-- is at least zero, -/
theorem sge_zero_of_small (w : BitVec 32) (h : w.toNat < 2 ^ 31) : IntOp.cmpi .sge w 0#32 = 1#1 :=
  (StableHlo.Predicate.sge_iff_toNat h (by decide)).mpr (by simp)
/-- is at most the word of any bound below 2³¹ that its value is at most, -/
theorem sle_of_small (w : BitVec 32) (n : Nat) (hn : n < 2 ^ 31) (h : w.toNat ≤ n) :
    IntOp.cmpi .sle w (BitVec.ofNat 32 n) = 1#1 :=
  (StableHlo.Predicate.sle_iff_toNat (by omega) (by rw [BitVec.toNat_ofNat, Nat.mod_eq_of_lt (by omega)]; exact hn)).mpr (by
    rw [BitVec.toNat_ofNat, Nat.mod_eq_of_lt (by omega)]; exact h)
/-- and, read signed and clamped into [0, n], is its own value. -/
theorem clamp_of_small (w : BitVec 32) (n : Nat) (hn : n < 2 ^ 31) (h : w.toNat ≤ n) : min w.toInt.toNat n = w.toNat := by
  rw [StableHlo.Predicate.toInt_eq_toNat_of_lt (by omega), Int.toNat_natCast]
  omega

/-! ## An all-reduction by `and` over ones -/

/-- A left fold by `and` from 1 over bits that are all 1 is 1. -/
theorem foldl_andi_ones {ι : Type} (f : ι → BitVec 1) : ∀ (L : List ι), (∀ n ∈ L, f n = 1#1) →
    L.foldl (fun r n => IntOp.andi r (f n)) 1#1 = 1#1
  | [], _ => rfl
  | a :: L, h => by
    rw [List.foldl_cons, h a List.mem_cons_self]
    exact foldl_andi_ones f L fun n hn => h n (List.mem_cons_of_mem _ hn)

/-- A `stablehlo.reduce` by `and`, from an initial value whose element is 1, of an operand that is 1 everywhere is 1 at
    every result index, whatever axes it reduces. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones _ _ fun n _ => hx n

/-! ## `take_along_axis` along axis 1: the batched gather -/

/-- The dimension numbers jnp's `take_along_axis(x, idx, axis=1)` gives `stablehlo.gather` for an operand [N, C], start
    indices [N, 1, 1] and a result [N, 1]: no offset axes, axis 1 collapsed and start-indexed, axis 0 batching on both
    sides, the index vector on axis 2, slices of one element. Their conditions are decided on a program's literal shapes;
    a printed record with these fields is this one (its fields agree and `wf` is a proof). -/
abbrev rowTakeDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT ROW p: the operand's row p at the start index `idx[p, 0, 0]`, read signed and clamped into
    [0, C − 1] as StableHLO's gather clamps every start index. -/
theorem gather_rowTake_apply {α : Type} {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (p : Fin N) :
    Host.gather (rowTakeDims N C wf) x idx (ix2 p (0 : Fin 1))
      = x (ix2 p ⟨min (idx (ix3 p (0 : Fin 1) (0 : Fin 1))).toInt.toNat (C - 1), by omega⟩) := by
  unfold Host.gather
  refine congrArg x (funext fun a => Fin.ext ?_)
  match a with
  | ⟨0, _⟩ =>
    show (rowTakeDims N C wf).start (ix2 p (0 : Fin 1)) idx 0 + (rowTakeDims N C wf).batchCoord (ix2 p (0 : Fin 1)) 0
      + (rowTakeDims N C wf).offCoord (ix2 p (0 : Fin 1)) 0 = p.val
    rw [GatherDims.start_batching (rowTakeDims N C wf) _ _ 0 (List.mem_singleton.mpr rfl),
      GatherDims.offCoord_eq_zero (rowTakeDims N C wf) _ 0
        (fun h => ((GatherDims.mem_sKept _ _).mp h).2 (List.mem_singleton.mpr rfl)), Nat.zero_add, Nat.add_zero]
    rfl
  | ⟨1, _⟩ =>
    show (rowTakeDims N C wf).start (ix2 p (0 : Fin 1)) idx 1 + (rowTakeDims N C wf).batchCoord (ix2 p (0 : Fin 1)) 1
      + (rowTakeDims N C wf).offCoord (ix2 p (0 : Fin 1)) 1 = min (idx (ix3 p (0 : Fin 1) (0 : Fin 1))).toInt.toNat (C - 1)
    rw [GatherDims.batchCoord_eq_zero (rowTakeDims N C wf) _ 1 (by show (1 : Fin 2) ∉ ([0] : List (Fin 2)); decide),
      GatherDims.offCoord_eq_zero (rowTakeDims N C wf) _ 1
        (fun h => ((GatherDims.mem_sKept _ _).mp h).1 (List.mem_singleton.mpr rfl))]
    simp only [Nat.add_zero]
    unfold GatherDims.start
    rw [dif_pos (show (1 : Fin 2) ∈ (rowTakeDims N C wf).startIndexMap from List.mem_singleton.mpr rfl)]
    have hsi : (rowTakeDims N C wf).siIdx (ix2 p (0 : Fin 1))
        ⟨List.idxOf (1 : Fin 2) (rowTakeDims N C wf).startIndexMap, List.idxOf_lt_length_iff.2 (List.mem_singleton.mpr rfl)⟩
        = ix3 p (0 : Fin 1) (0 : Fin 1) := funext fun b => Fin.ext (by
      match b with
      | ⟨0, _⟩ => rfl
      | ⟨1, _⟩ => rfl
      | ⟨2, _⟩ => rfl)
    rw [hsi]
    rfl

end Cert.LibOneHotTake

end
-- ==== Proof.PreDecode.lean ====
/-
  Reading the precondition: when the printed predicate is all ones, every probability is a real number (neither +∞ nor -∞)
  and every label word is, as an unsigned number, below 1000.
-/
import proofs.«417511_j49074296324832_3_alg».proof.Pre_finite_inputs
import proofs.«417511_j49074296324832_3_alg».proof.Proof.Gen.Pre_finite_inputs
import proofs.«417511_j49074296324832_3_alg».proof.Proof.Spec
import proofs.«417511_j49074296324832_3_alg».proof.Proof.LibOneHotTake
import Idealize.ShloMosaic.Lib.ReduceAll
import Idealize.ShloMosaic.Lib.StableHlo.Predicate

noncomputable section

namespace Cert.Nll

open Idealize.ShloMosaic Idealize.ShloMosaic.ValueIdx

/-- The f32 pattern 0x7F800000 denotes +∞. -/
theorem inf_pattern : Ideal.ofBits .f32 0x7F800000#32 = ⊤ := by simp [Ideal.ofBits, Ideal.ieee]

/-- An extended real whose absolute value max a (−a) compares below +∞ is neither infinity: a = +∞ would make the
    maximum +∞, and a = −∞ would make −a = +∞. -/
theorem finite_of_abs_lt_inf (a : EReal)
    (h : Ideal.cmp .olt (max a (-a)) (Ideal.ofBits .f32 0x7F800000#32) = 1#1) : a ≠ ⊤ ∧ a ≠ ⊥ := by
  rw [inf_pattern] at h
  unfold Ideal.cmp at h
  rw [StableHlo.Predicate.ofBool_eq_one_iff] at h
  have hlt : max a (-a) < ⊤ := of_decide_eq_true h
  rw [max_lt_iff] at hlt
  refine ⟨ne_of_lt hlt.1, ?_⟩
  rintro rfl
  exact absurd hlt.2 (by simp)

/-- The precondition, all ones, says: every probability is finite, and every label lies in [0, 1000). -/
theorem pre_decode [Cert.Pre_finite_inputs.Facts] (x : SX.Idx → EReal) (t : ST.Idx → BitVec 32)
    (h : Cert.Pre_finite_inputs.fn (F := Ideal) x t = fun _ => 1#1) :
    (∀ i, x i ≠ ⊤ ∧ x i ≠ ⊥) ∧ (∀ j, (t j).toNat < 1000) := by
  -- the result shape has rank 0, so it has one index
  haveI : Subsingleton (Cert.Pre_finite_inputs.S_).Idx := ⟨fun a b => funext fun d => d.elim0⟩
  -- the predicate at its one index: the conjunction of the two all-reductions
  have h0 := congrFun h ix0
  unfold Cert.Pre_finite_inputs.fn at h0
  dsimp only at h0
  obtain ⟨hx, ht⟩ := IntOp.andi_eq_one.1 h0
  constructor
  · -- every element of |x| < +∞ is 1
    intro i
    have e := Host.reduce_andi_all _ _ _ _ ix0 hx i
    exact finite_of_abs_lt_inf (x i) e
  · -- every element of (t ≥ 0) ∧ (t < 1000), both signed, is 1
    intro j
    have e := Host.reduce_andi_all _ _ _ _ ix0 ht j
    obtain ⟨e0, e1⟩ := IntOp.andi_eq_one.1 e
    exact Cert.LibOneHotTake.toNat_lt_of_signed_range (t j) 1000 (by decide) e0 e1

end Cert.Nll

end
-- ==== Proof.RefValue.lean ====
/-
  The reference's value: for labels in [0, 1000) the wrap of negative labels is the identity, the in-range mask is all
  ones, the batched gather reads x[b, s, t[b, s]], and so the result is minus the sum, from zero, of the log-probabilities.
-/
import proofs.«417511_j49074296324832_3_alg».proof.Proof.RefRead
import proofs.«417511_j49074296324832_3_alg».proof.Proof.Spec
import proofs.«417511_j49074296324832_3_alg».proof.Proof.LibOneHotTake
import Idealize.ShloMosaic.Lib.StableHlo.Predicate

noncomputable section

namespace Cert.Nll

open Idealize.ShloMosaic Idealize.ShloMosaic.ValueIdx

section Gather
open Cert.ReferenceIdeal

variable [Cert.ReferenceIdeal.Facts]

/-- THE BATCHED GATHER READ AT (b, s, 0). The gather of `take_along_axis` along the last axis of a [64, 512, 1000] operand
    (axes 0 and 1 batching on both sides, axis 2 collapsed and start-indexed, start indices [64, 512, 1, 1] with the index
    vector on axis 3, slices of one element) reads the operand's row (b, s) at the start index `idx[b, s, 0, 0]`, read
    signed and clamped into [0, 999] as StableHLO's gather clamps every start index. -/
theorem gather_lastTake_apply {α : Type} {w : Nat} (x : S64x512x1000.Idx → α) (idx : IVec S64x512x1x1 w)
    (b : Fin 64) (s : Fin 512) :
    Host.gather gather_S64x512x1000_S64x512x1x1_S64x512x1_n_2_01_01_2_3_111 x idx (ix3 b s (0 : Fin 1))
      = x (ix3 b s ⟨min (idx (ix4 b s (0 : Fin 1) (0 : Fin 1))).toInt.toNat 999, by omega⟩) := by
  unfold Host.gather
  refine congrArg x (funext fun a => Fin.ext ?_)
  match a with
  | ⟨0, _⟩ =>
    show gather_S64x512x1000_S64x512x1x1_S64x512x1_n_2_01_01_2_3_111.start (ix3 b s (0 : Fin 1)) idx 0
      + gather_S64x512x1000_S64x512x1x1_S64x512x1_n_2_01_01_2_3_111.batchCoord (ix3 b s (0 : Fin 1)) 0
      + gather_S64x512x1000_S64x512x1x1_S64x512x1_n_2_01_01_2_3_111.offCoord (ix3 b s (0 : Fin 1)) 0 = b.val
    rw [GatherDims.start_batching _ _ _ 0 (show (0 : Fin 3) ∈ ([0, 1] : List (Fin 3)) by decide),
      GatherDims.offCoord_eq_zero _ _ 0
        (fun h => ((GatherDims.mem_sKept _ _).mp h).2 (show (0 : Fin 3) ∈ ([0, 1] : List (Fin 3)) by decide)),
      Nat.zero_add, Nat.add_zero]
    rfl
  | ⟨1, _⟩ =>
    show gather_S64x512x1000_S64x512x1x1_S64x512x1_n_2_01_01_2_3_111.start (ix3 b s (0 : Fin 1)) idx 1
      + gather_S64x512x1000_S64x512x1x1_S64x512x1_n_2_01_01_2_3_111.batchCoord (ix3 b s (0 : Fin 1)) 1
      + gather_S64x512x1000_S64x512x1x1_S64x512x1_n_2_01_01_2_3_111.offCoord (ix3 b s (0 : Fin 1)) 1 = s.val
    rw [GatherDims.start_batching _ _ _ 1 (show (1 : Fin 3) ∈ ([0, 1] : List (Fin 3)) by decide),
      GatherDims.offCoord_eq_zero _ _ 1
        (fun h => ((GatherDims.mem_sKept _ _).mp h).2 (show (1 : Fin 3) ∈ ([0, 1] : List (Fin 3)) by decide)),
      Nat.zero_add, Nat.add_zero]
    rfl
  | ⟨2, _⟩ =>
    show gather_S64x512x1000_S64x512x1x1_S64x512x1_n_2_01_01_2_3_111.start (ix3 b s (0 : Fin 1)) idx 2
      + gather_S64x512x1000_S64x512x1x1_S64x512x1_n_2_01_01_2_3_111.batchCoord (ix3 b s (0 : Fin 1)) 2
      + gather_S64x512x1000_S64x512x1x1_S64x512x1_n_2_01_01_2_3_111.offCoord (ix3 b s (0 : Fin 1)) 2
      = min (idx (ix4 b s (0 : Fin 1) (0 : Fin 1))).toInt.toNat 999
    rw [GatherDims.batchCoord_eq_zero _ _ 2 (show (2 : Fin 3) ∉ ([0, 1] : List (Fin 3)) by decide),
      GatherDims.offCoord_eq_zero _ _ 2
        (fun h => ((GatherDims.mem_sKept _ _).mp h).1 (show (2 : Fin 3) ∈ ([2] : List (Fin 3)) from List.mem_singleton.mpr rfl))]
    simp only [Nat.add_zero]
    unfold GatherDims.start
    rw [dif_pos (show (2 : Fin 3) ∈ gather_S64x512x1000_S64x512x1x1_S64x512x1_n_2_01_01_2_3_111.startIndexMap
      from List.mem_singleton.mpr rfl)]
    have hsi : gather_S64x512x1000_S64x512x1x1_S64x512x1_n_2_01_01_2_3_111.siIdx (ix3 b s (0 : Fin 1))
        ⟨List.idxOf (2 : Fin 3) gather_S64x512x1000_S64x512x1x1_S64x512x1_n_2_01_01_2_3_111.startIndexMap,
          List.idxOf_lt_length_iff.2 (List.mem_singleton.mpr rfl)⟩
        = ix4 b s (0 : Fin 1) (0 : Fin 1) := funext fun c => Fin.ext (by
      match c with
      | ⟨0, _⟩ => rfl
      | ⟨1, _⟩ => rfl
      | ⟨2, _⟩ => rfl
      | ⟨3, _⟩ => rfl)
    rw [hsi]
    rfl

end Gather

section Value
open Cert.ReferenceIdeal Cert.ReferenceIdeal.ReadP

variable [Cert.ReferenceIdeal.Facts]

/-- The label array broadcast to [64, 512, 1] reads the label of its position. -/
theorem bcastLabel_at (t : ST.Idx → BitVec 32) (b : Fin 64) (s : Fin 512) :
    val_main_v0 (F := Ideal) t (ix3 b s (0 : Fin 1)) = t (ix2 b s) := by
  rw [val_main_v0_apply]
  exact congrArg t (funext fun a => by
    match a with
    | ⟨0, _⟩ => rfl
    | ⟨1, _⟩ => rfl)

/-- (a) The wrap of negative labels is the identity on a label below 1000: such a word is not negative. -/
theorem wrapLabel_at (t : ST.Idx → BitVec 32) (ht : ∀ j, (t j).toNat < 1000) (b : Fin 64) (s : Fin 512) :
    val_main_call0_v4 (F := Ideal) t (ix3 b s (0 : Fin 1)) = t (ix2 b s) := by
  have h := ht (ix2 b s)
  rw [val_main_call0_v4_apply, val_main_call0_v1_apply, val_main_call0_v0_apply, val_main_call0_c_apply,
    bcastLabel_at, Cert.LibOneHotTake.slt_zero_of_small _ (by omega), select_zero]

/-- The start indices [64, 512, 1, 1] read the label of their position. -/
theorem startIdx_at (t : ST.Idx → BitVec 32) (ht : ∀ j, (t j).toNat < 1000) (b : Fin 64) (s : Fin 512) :
    val_main_call0_v5 (F := Ideal) t (ix4 b s (0 : Fin 1) (0 : Fin 1)) = t (ix2 b s) := by
  rw [val_main_call0_v5_apply, ← wrapLabel_at t ht b s]
  refine congrArg _ (funext fun a => Fin.ext ?_)
  match a with
  | ⟨0, _⟩ =>
    show (((b.val * 512 + s.val) * 1 + ((0 : Fin 1) : Nat)) * 1 + ((0 : Fin 1) : Nat)) / 512 = b.val
    have := s.isLt; rw [Fin.val_zero]; omega
  | ⟨1, _⟩ =>
    show (((b.val * 512 + s.val) * 1 + ((0 : Fin 1) : Nat)) * 1 + ((0 : Fin 1) : Nat)) / 1 % 512 = s.val
    have := s.isLt; rw [Fin.val_zero]; omega
  | ⟨2, _⟩ => rfl

/-- (b) The in-range mask (0 ≤ label ≤ 999, both signed) is 1 at every position. -/
theorem inRange_one (t : ST.Idx → BitVec 32) (ht : ∀ j, (t j).toNat < 1000) (i : S64x512x1x1.Idx) :
    val_main_call0_v11 (F := Ideal) t i = 1#1 := by
  obtain ⟨b, s, c, d, rfl⟩ : ∃ (b : Fin 64) (s : Fin 512) (c : Fin 1) (d : Fin 1), i = ix4 b s c d :=
    ⟨i 0, i 1, i 2, i 3, eq_ix4 i⟩
  obtain rfl : c = 0 := Subsingleton.elim _ _
  obtain rfl : d = 0 := Subsingleton.elim _ _
  have h := ht (ix2 b s)
  rw [val_main_call0_v11_apply, val_main_call0_v7_apply, val_main_call0_v10_apply, val_main_call0_v6_apply,
    val_main_call0_c_2_apply, val_main_call0_v9_apply, val_main_call0_v8_apply, val_main_call0_c_1_apply,
    startIdx_at t ht b s, Cert.LibOneHotTake.sge_zero_of_small _ (by omega),
    Cert.LibOneHotTake.sle_of_small _ 999 (by decide) (by omega)]
  rfl

/-- Hence its fold by `and` over the unit axis is 1 at every position. -/
theorem inRangeAll_one (t : ST.Idx → BitVec 32) (ht : ∀ j, (t j).toNat < 1000) (i : S64x512x1.Idx) :
    val_main_call0_v12 (F := Ideal) t i = 1#1 :=
  Cert.LibOneHotTake.reduce_andi_of_forall _ _ _ _ rfl (inRange_one t ht) i

/-- (c) The gather reads the row's entry at the position's label. -/
theorem gather_at (x : SX.Idx → EReal) (t : ST.Idx → BitVec 32) (ht : ∀ j, (t j).toNat < 1000) (b : Fin 64) (s : Fin 512) :
    val_main_call0_v13 (F := Ideal) x t (ix3 b s (0 : Fin 1)) = x (ix3 b s (col (t (ix2 b s)))) := by
  have h := ht (ix2 b s)
  unfold val_main_call0_v13
  rw [gather_lastTake_apply]
  refine congrArg x (congrArg (ix3 b s) (Fin.ext ?_))
  show min (val_main_call0_v5 (F := Ideal) t (ix4 b s (0 : Fin 1) (0 : Fin 1))).toInt.toNat 999 = (col (t (ix2 b s))).val
  rw [startIdx_at t ht b s, Cert.LibOneHotTake.clamp_of_small _ 999 (by decide) (by omega), col_val_of_lt h]

/-- The taken entry, with the mask's select resolved and the unit axis dropped. -/
theorem picked_at (x : SX.Idx → EReal) (t : ST.Idx → BitVec 32) (ht : ∀ j, (t j).toNat < 1000) (b : Fin 64) (s : Fin 512) :
    val_main_v2 (F := Ideal) x t (ix2 b s) = x (ix3 b s (col (t (ix2 b s)))) := by
  have hi : idx_main_v2 (ix2 b s) = ix3 b s (0 : Fin 1) := funext fun a => Fin.ext (by
    match a with
    | ⟨0, _⟩ =>
      show (b.val * 512 + s.val) / 512 = b.val
      have := s.isLt; omega
    | ⟨1, _⟩ =>
      show (b.val * 512 + s.val) / 1 % 512 = s.val
      have := s.isLt; omega
    | ⟨2, _⟩ => rfl)
  rw [val_main_v2_apply, hi, val_main_v1_apply, inRangeAll_one t ht, select_one, gather_at x t ht b s]

/-- The log stage is the position's log-probability. -/
theorem logStage_at (x : SX.Idx → EReal) (t : ST.Idx → BitVec 32) (ht : ∀ j, (t j).toNat < 1000) (b : Fin 64) (s : Fin 512) :
    val_main_v3 (F := Ideal) x t (ix2 b s) = logp x t b s := by
  rw [val_main_v3_apply, picked_at x t ht b s, Ideal.hostUnary_log_def]
  rfl

end Value

/-- With every label in [0, 1000), the reference's result is the loss. -/
theorem ref_value [Cert.ReferenceIdeal.Facts] (x : SX.Idx → EReal) (t : ST.Idx → BitVec 32) (ht : ∀ j, (t j).toNat < 1000) :
    Cert.ReferenceIdeal.ReadP.val_main_v5 (F := Ideal) x t = fun _ => loss x t := by
  funext i
  rw [Cert.ReferenceIdeal.ReadP.val_main_v5_apply, Cert.ReferenceIdeal.ReadP.val_main_v4_apply,
    Cert.ReferenceIdeal.ReadP.val_main_cst_apply, Ideal.ofBits_def, Ideal.ofBits_zero_f32, Ideal.hostNegf_def, Ideal.negf_def,
    sum_idx2]
  unfold loss
  simp only [logStage_at x t ht]

end Cert.Nll

end
-- ==== Proof.Algebra.lean ====
/-
  The arithmetic of the extended reals that joins the two sides: the [128, 128] array of per-tile partial losses sums to
  the sum of the sixteen tile values, and — no log-probability being +∞ — the tile values sum to the loss.
-/
import proofs.«417511_j49074296324832_3_alg».proof.Proof.Spec
import Mathlib.Algebra.BigOperators.Fin
import Mathlib.Logic.Equiv.Fin.Basic
import Mathlib.Data.EReal.Operations

noncomputable section

namespace Cert.Nll

open Idealize.ShloMosaic Idealize.ShloMosaic.ValueIdx

/-! ## Sums over blocks of consecutive naturals -/

/-- m blocks of n consecutive naturals make up the first m n naturals: the pair (i, r) is the natural n i + r, and
    every natural below m n is such a pair exactly once. -/
theorem sum_fin_mul {M : Type*} [AddCommMonoid M] (m n N : ℕ) (hN : N = m * n) (f : ℕ → M) :
    ∑ i : Fin m, ∑ r : Fin n, f (n * i.val + r.val) = ∑ k : Fin N, f k.val := by
  subst hN
  rw [← Equiv.sum_comp finProdFinEquiv (fun k : Fin (m * n) => f k.val), Fintype.sum_prod_type]
  refine Finset.sum_congr rfl fun i _ => Finset.sum_congr rfl fun r _ => ?_
  show f (n * i.val + r.val) = f (r.val + n * i.val)
  rw [Nat.add_comm]

/-! ## Sums of extended reals none of which is +∞ -/

/-- A finite sum of extended reals none of which is +∞ is not +∞. -/
theorem ereal_sum_ne_top {ι : Type*} (s : Finset ι) (f : ι → EReal) (h : ∀ i ∈ s, f i ≠ ⊤) :
    ∑ i ∈ s, f i ≠ ⊤ := by
  classical
  induction s using Finset.induction_on with
  | empty => simp
  | insert a s ha ih =>
    rw [Finset.sum_insert ha]
    exact EReal.add_ne_top (h a (Finset.mem_insert_self a s))
      (ih fun i hi => h i (Finset.mem_insert_of_mem hi))

/-- Negation passes through a finite sum of extended reals none of which is +∞: with +∞ excluded no term and no
    partial sum meets its opposite infinity, so -(a + b) = -a + -b applies at every step. -/
theorem ereal_sum_neg {ι : Type*} (s : Finset ι) (f : ι → EReal) (h : ∀ i ∈ s, f i ≠ ⊤) :
    ∑ i ∈ s, -f i = -∑ i ∈ s, f i := by
  classical
  induction s using Finset.induction_on with
  | empty => simp
  | insert a s ha ih =>
    have hs : ∀ i ∈ s, f i ≠ ⊤ := fun i hi => h i (Finset.mem_insert_of_mem hi)
    rw [Finset.sum_insert ha, Finset.sum_insert ha, ih hs,
      EReal.neg_add (Or.inr (ereal_sum_ne_top s f hs)) (Or.inl (h a (Finset.mem_insert_self a s))),
      sub_eq_add_neg]

/-! ## The rows -/

/-- The log-probability depends on the position only through the two coordinates' values. -/
theorem logp_congr (x : SX.Idx → EReal) (t : ST.Idx → BitVec 32) {b b' : Fin 64} {s s' : Fin 512}
    (hb : b.val = b'.val) (hs : s.val = s'.val) : logp x t b s = logp x t b' s' := by
  rw [Fin.ext hb, Fin.ext hs]

/-- No row's log-probability is +∞ when no position's is (past the last row it is zero). -/
theorem logpRow_ne_top (x : SX.Idx → EReal) (t : ST.Idx → BitVec 32) (h : ∀ b s, logp x t b s ≠ ⊤) (n : ℕ) :
    logpRow x t n ≠ ⊤ := by
  unfold logpRow
  split_ifs with hn
  · exact h _ _
  · exact EReal.zero_ne_top

/-- Row 512 b + s is position (b, s): (512 b + s) / 512 = b and (512 b + s) % 512 = s for s < 512. -/
theorem logpRow_mul_add (x : SX.Idx → EReal) (t : ST.Idx → BitVec 32) (b : Fin 64) (s : Fin 512) :
    logpRow x t (512 * b.val + s.val) = logp x t b s := by
  have hb := b.isLt
  have hs := s.isLt
  unfold logpRow
  rw [dif_pos (by omega)]
  exact logp_congr x t (by show (512 * b.val + s.val) / 512 = b.val; omega)
    (by show (512 * b.val + s.val) % 512 = s.val; omega)

/-- Tile i's value is minus the sum of its two slices of 1024 rows, slice r ∈ {0, 1} of tile i being the slice 2 i + r
    of all the rows: 0 + (0 - A) + (0 - B) = -A + -B = -(A + B), the last step because neither A nor B is +∞. -/
theorem tileAcc_eq (x : SX.Idx → EReal) (t : ST.Idx → BitVec 32) (h : ∀ b s, logp x t b s ≠ ⊤) (i : ℕ) :
    tileAcc x t i = -∑ r : Fin 2, ∑ q : Fin 1024, logpRow x t (1024 * (2 * i + r.val) + q.val) := by
  have hA : ∑ q : Fin 1024, logpRow x t (2048 * i + q.val) ≠ ⊤ :=
    ereal_sum_ne_top _ _ fun q _ => logpRow_ne_top x t h _
  have hB : ∑ q : Fin 1024, logpRow x t (2048 * i + 1024 + q.val) ≠ ⊤ :=
    ereal_sum_ne_top _ _ fun q _ => logpRow_ne_top x t h _
  have v0 : ((0 : Fin 2) : ℕ) = 0 := rfl
  have v1 : ((1 : Fin 2) : ℕ) = 1 := rfl
  have e0 : ∀ q : Fin 1024, 1024 * (2 * i + ((0 : Fin 2) : ℕ)) + q.val = 2048 * i + q.val := fun q => by
    rw [v0]; omega
  have e1 : ∀ q : Fin 1024, 1024 * (2 * i + ((1 : Fin 2) : ℕ)) + q.val = 2048 * i + 1024 + q.val := fun q => by
    rw [v1]; omega
  rw [Fin.sum_univ_two]
  simp only [e0, e1]
  unfold tileAcc
  rw [zero_add, zero_sub, zero_sub, EReal.neg_add (Or.inr hB) (Or.inl hA), sub_eq_add_neg]

/-! ## The statements -/

/-- The array of partial losses holds tile i's value at (8 i, 0) and zero elsewhere, so its total is the sum of the tile values. -/
theorem sum_partials (x : SX.Idx → EReal) (t : ST.Idx → BitVec 32) :
    ∑ p : SOut.Idx, partials x t p = ∑ i : Fin 16, tileAcc x t i.val := by
  rw [sum_idx2]
  -- In row a only column 0 can be non-zero.
  have inner : ∀ a : Fin 128, ∑ b : Fin 128, partials x t (ix2 a b)
      = if a.val % 8 = 0 then tileAcc x t (a.val / 8) else 0 := by
    intro a
    rw [Finset.sum_eq_single (0 : Fin 128)]
    · show (if a.val % 8 = 0 ∧ ((0 : Fin 128) : ℕ) = 0 then tileAcc x t (a.val / 8) else 0) = _
      have v0 : ((0 : Fin 128) : ℕ) = 0 := rfl
      by_cases ha : a.val % 8 = 0
      · rw [if_pos ⟨ha, v0⟩, if_pos ha]
      · rw [if_neg (fun hh => ha hh.1), if_neg ha]
    · intro b _ hb
      show (if a.val % 8 = 0 ∧ b.val = 0 then tileAcc x t (a.val / 8) else 0) = 0
      rw [if_neg]
      rintro ⟨_, h0⟩
      exact hb (Fin.ext h0)
    · intro hne
      exact absurd (Finset.mem_univ _) hne
  rw [Finset.sum_congr rfl fun a _ => inner a]
  -- Row a = 8 i + r holds a tile value only for r = 0, and then it is tile i's.
  rw [← sum_fin_mul 16 8 128 rfl (fun k => if k % 8 = 0 then tileAcc x t (k / 8) else 0)]
  refine Finset.sum_congr rfl fun i _ => ?_
  rw [Finset.sum_eq_single (0 : Fin 8)]
  · show (if (8 * i.val + ((0 : Fin 8) : ℕ)) % 8 = 0 then tileAcc x t ((8 * i.val + ((0 : Fin 8) : ℕ)) / 8) else 0) = _
    have v0 : ((0 : Fin 8) : ℕ) = 0 := rfl
    rw [v0, if_pos (by omega)]
    congr 1
    omega
  · intro r _ hr
    show (if (8 * i.val + r.val) % 8 = 0 then tileAcc x t ((8 * i.val + r.val) / 8) else 0) = 0
    rw [if_neg]
    intro hmod
    apply hr
    apply Fin.ext
    show r.val = 0
    have := r.isLt
    omega
  · intro hne
    exact absurd (Finset.mem_univ _) hne

/-- With no log-probability +∞, the sixteen tile values sum to the loss. -/
theorem sum_tileAcc (x : SX.Idx → EReal) (t : ST.Idx → BitVec 32) (h : ∀ b s, logp x t b s ≠ ⊤) :
    ∑ i : Fin 16, tileAcc x t i.val = loss x t := by
  have hC : ∀ i : Fin 16,
      ∑ r : Fin 2, ∑ q : Fin 1024, logpRow x t (1024 * (2 * i.val + r.val) + q.val) ≠ ⊤ :=
    fun i => ereal_sum_ne_top _ _ fun r _ => ereal_sum_ne_top _ _ fun q _ => logpRow_ne_top x t h _
  -- Each tile value is minus its two slices' sum, and the minus sign comes out of the sum over the tiles.
  have e1 : ∑ i : Fin 16, tileAcc x t i.val
      = -∑ i : Fin 16, ∑ r : Fin 2, ∑ q : Fin 1024, logpRow x t (1024 * (2 * i.val + r.val) + q.val) :=
    (Finset.sum_congr rfl fun i _ => tileAcc_eq x t h i.val).trans (ereal_sum_neg _ _ fun i _ => hC i)
  -- 16 tiles of 2 slices are the 32 slices.
  have e2 : ∑ i : Fin 16, ∑ r : Fin 2, ∑ q : Fin 1024, logpRow x t (1024 * (2 * i.val + r.val) + q.val)
      = ∑ j : Fin 32, ∑ q : Fin 1024, logpRow x t (1024 * j.val + q.val) :=
    sum_fin_mul 16 2 32 rfl (fun j => ∑ q : Fin 1024, logpRow x t (1024 * j + q.val))
  -- 32 slices of 1024 rows are the 32768 rows.
  have e3 : ∑ j : Fin 32, ∑ q : Fin 1024, logpRow x t (1024 * j.val + q.val)
      = ∑ n : Fin 32768, logpRow x t n.val :=
    sum_fin_mul 32 1024 32768 rfl (fun n => logpRow x t n)
  -- So are 64 blocks of 512 rows.
  have e4 : ∑ b : Fin 64, ∑ s : Fin 512, logpRow x t (512 * b.val + s.val)
      = ∑ n : Fin 32768, logpRow x t n.val :=
    sum_fin_mul 64 512 32768 rfl (fun n => logpRow x t n)
  -- Row 512 b + s is position (b, s).
  have e5 : ∑ b : Fin 64, ∑ s : Fin 512, logp x t b s
      = ∑ b : Fin 64, ∑ s : Fin 512, logpRow x t (512 * b.val + s.val) :=
    Finset.sum_congr rfl fun b _ => Finset.sum_congr rfl fun s _ => (logpRow_mul_add x t b s).symm
  -- The loss's sum starts from zero, which adds nothing.
  have e6 : loss x t = -∑ b : Fin 64, ∑ s : Fin 512, logp x t b s := by
    unfold loss; rw [zero_add]
  rw [e1, e2, e3, e6, e5, e4]

/-- The host's sum, from zero, of the array of partial losses is the loss. -/
theorem partials_total (x : SX.Idx → EReal) (t : ST.Idx → BitVec 32) (h : ∀ b s, logp x t b s ≠ ⊤) :
    0 + ∑ p : SOut.Idx, partials x t p = loss x t := by
  rw [sum_partials, sum_tileAcc x t h, zero_add]

/-- The log of an extended real other than +∞ is not +∞. -/
theorem log_ne_top {a : EReal} (h : a ≠ ⊤) : Ideal.log a ≠ ⊤ := by
  induction a using EReal.rec with
  | bot => rw [Ideal.log_bot]; exact bot_ne_top
  | coe r =>
    rw [Ideal.log_coe]
    split_ifs
    · exact bot_ne_top
    · exact EReal.coe_ne_top _
  | top => exact absurd rfl h

end Cert.Nll

end
-- ==== Proof.KernelRun.lean ====
/-
  What one tile's body leaves in its [8, 128] output block, as a pure function of the tile's three input blocks:
  the probabilities block x0 [2048, 1000], the labels block x1 [2048, 1] and the class-counter row x2 [1, 1000].
  The body runs two trips of a loop, trip k reading rows 1024 k … 1024 k + 1023 of x0 and x1 and adding that slice's
  contribution to the carried [1, 1] value, which starts at zero; the final store writes one function of the carried value.
-/
import proofs.«417511_j49074296324832_3_alg».proof.Proof.Gen.KernelIdeal.Frame
import Idealize.ShloMosaic.Lib.Pipeline.Value

set_option maxRecDepth 16384

noncomputable section

namespace Cert.KernelIdeal.NllRun

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

/-- The loop makes two trips. -/
theorem trips_eq : k0_t1_loop.trips = 2 := by decide +kernel

/-- The two trips. -/
abbrev trip0 : Fin k0_t1_loop.trips := ⟨0, by rw [trips_eq]; decide⟩
abbrev trip1 : Fin k0_t1_loop.trips := ⟨1, by rw [trips_eq]; decide⟩

/-- Trip k's slice of the probabilities block: rows 1024 k … 1024 k + 1023, every column. -/
abbrev slice0 (k : Fin k0_t1_loop.trips) : Rect S2048x1000 :=
  Rect.unit (s := S2048x1000) (k0_off1 k) S1024x1000.size (k0_off1_inb k)
/-- Trip k's slice of the labels block: the same rows. -/
abbrev slice1 (k : Fin k0_t1_loop.trips) : Rect S2048x1 :=
  Rect.unit (s := S2048x1) (k0_off2 k) S1024x1.size (k0_off2_inb k)
/-- The whole class-counter row. -/
abbrev row2 : Rect S1x1000 := Rect.unit (s := S1x1000) ![0, 0] S1x1000.size inb_S1x1000_S1x1000_0_0

/-- What trip k makes of the carried value: the body's arithmetic on the trip's slices. -/
def tripVal (x0 : Vec F S2048x1000 .f32) (x1 : Vec F S2048x1 .i32) (x2 : Vec F S1x1000 .i32)
    (k : Fin k0_t1_loop.trips) (acc : FVec F S1x1 .f32) : FVec F S1x1 .f32 :=
  k0_pay2 acc (View.ld x0 (slice0 k)) (View.ld x1 (slice1 k)) (View.ld x2 row2)

/-- The carried value after both trips, from zero. -/
def tileVal (x0 : Vec F S2048x1000 .f32) (x1 : Vec F S2048x1 .i32) (x2 : Vec F S1x1000 .i32) : FVec F S1x1 .f32 :=
  tripVal x0 x1 x2 trip1 (tripVal x0 x1 x2 trip0 (k0_pay1 (F := F)))

/-- One trip of the run is the body's arithmetic on the trip's slices of the blocks. -/
theorem tripR_eq (c : Dev nD) (i : grid0.Coords) (arg1 : Memref sig .tc .vmem S2048x1000 .f32) (harg1 : arg1.IsWhole) (arg2 : Memref sig .tc .vmem S2048x1 .i32) (harg2 : arg2.IsWhole) (arg3 : Memref sig .tc .vmem S1x1000 .i32) (harg3 : arg3.IsWhole) (arg4 : Memref sig .tc .vmem S8x128 .f32) (harg4 : arg4.IsWhole)
    (x0 : Vec F S2048x1000 .f32) (x1 : Vec F S2048x1 .i32) (x2 : Vec F S1x1000 .i32) (k : Fin k0_t1_loop.trips) (acc : FVec F S1x1 .f32) :
    tripR_k0_t1 (F := F) Variants.none c none i arg1 harg1 arg2 harg2 arg3 harg3 arg4 harg4 (harg1.unread x0) (harg2.unread x1) (harg3.unread x2) k acc
      = tripVal x0 x1 x2 k acc := by
  unfold tripR_k0_t1 trip_k0_t1 tripVal
  dsimp only
  simp only [View.readAt_eq_ld, harg1.read_unread, harg2.read_unread, harg3.read_unread]

theorem zero_off : (![0, 0] : Fin S8x128.rank → Nat) = fun _ => 0 := by
  funext a; match a with
  | ⟨0, _⟩ => rfl
  | ⟨1, _⟩ => rfl

/-- What the body leaves in the output block: the final store's function of the carried value after both trips. -/
theorem out_eq (c : Dev nD) (i : grid0.Coords) (arg1 : Memref sig .tc .vmem S2048x1000 .f32) (harg1 : arg1.IsWhole) (arg2 : Memref sig .tc .vmem S2048x1 .i32) (harg2 : arg2.IsWhole) (arg3 : Memref sig .tc .vmem S1x1000 .i32) (harg3 : arg3.IsWhole) (arg4 : Memref sig .tc .vmem S8x128 .f32) (harg4 : arg4.IsWhole)
    (x0 : Vec F S2048x1000 .f32) (x1 : Vec F S2048x1 .i32) (x2 : Vec F S1x1000 .i32) :
    out0_A_3 c i arg1 harg1 arg2 harg2 arg3 harg3 arg4 harg4 x0 x1 x2 = k0_pay3 (tileVal x0 x1 x2) := by
  unfold out0_A_3
  rw [View.read_writes_eq_canon _ _ _ (cover0_A_3 c i arg1 harg1 arg2 harg2 arg3 harg3 arg4 harg4 x0 x1 x2)]
  unfold kernelRun0_A
  dsimp only
  rw [View.canon_unit_zero zero_off]
  have e2 : Scf.trips (0#32) (Scalar.addi 0#32 2#32) 1#32 = (trip1).val + 1 := by decide +kernel
  rw [e2, st_k0_t1_succ, tripR_eq]
  have e1 : (trip1).val = (trip0).val + 1 := rfl
  rw [e1, st_k0_t1_succ, tripR_eq]
  rfl

end Cert.KernelIdeal.NllRun

end
-- ==== Proof.KernelPay.lean ====
/-
  The body's arithmetic read at an index, on the extended reals.

  The final store writes the carried [1, 1] value at entry (0, 0) of the [8, 128] block and zero elsewhere. One trip adds
  to the carried value 0 - (the sum over the slice's 1024 rows of the log of the row's masked sum), the masked sum of row r
  being the sum over the 1000 columns c of (the probability at (r, c) where the class counter at c equals the row's label,
  else 0). Where the class counter at c is the word of c and the row's label is below 1000 the masked sum is the row's
  probability at its label, since every other column contributes zero.
-/
import proofs.«417511_j49074296324832_3_alg».proof.Proof.KernelRun
import proofs.«417511_j49074296324832_3_alg».proof.Proof.LibOneHotTake
import Idealize.ShloMosaic.Lib.ValueIdx
import Idealize.ShloMosaic.Lib.Pipeline.Value
import Idealize.ShloMosaic.PureOps.Ideal.Laws

set_option maxRecDepth 16384

noncomputable section

namespace Cert.KernelIdeal.NllPay

open Cert.KernelIdeal Cert.KernelIdeal.Gen Cert.KernelIdeal.NllRun
open Idealize.ShloMosaic Idealize.ShloMosaic.ValueIdx

/-- The final store's function of the carried value: the value at (0, 0), zero elsewhere. -/
theorem pay3_apply (v : FVec Ideal S1x1 .f32) (a : Fin 8) (b : Fin 128) :
    k0_pay3 (F := Ideal) v (ix2 a b) = if a.val = 0 ∧ b.val = 0 then v (ix2 (0 : Fin 1) (0 : Fin 1)) else 0 := by
  unfold k0_pay3
  have e0 : iota .tc S8x128 32 [0] iota_S8x128_d0_w32 (ix2 a b) = BitVec.ofNat 32 a.val := iota_single_apply ..
  have e1 : iota .tc S8x128 32 [1] iota_S8x128_d1_w32 (ix2 a b) = BitVec.ofNat 32 b.val := iota_single_apply ..
  have eb : broadcastTo S8x128 (shapeCast S1x1 v shapeCasts_S1x1_S1x1) broadcasts_S1x1_S8x128 (ix2 a b)
      = v (ix2 (0 : Fin 1) (0 : Fin 1)) := by
    rw [shapeCast_self]
    exact broadcastTo_apply v _ _ (ix2 (0 : Fin 1) (0 : Fin 1)) (fun d => match d with
      | ⟨0, _⟩ => rfl
      | ⟨1, _⟩ => rfl)
  show Scalar.select (IntOp.andi (IntOp.cmpi .eq (iota .tc S8x128 32 [0] iota_S8x128_d0_w32 (ix2 a b)) 0#32)
      (IntOp.cmpi .eq (iota .tc S8x128 32 [1] iota_S8x128_d1_w32 (ix2 a b)) 0#32))
      (broadcastTo S8x128 (shapeCast S1x1 v shapeCasts_S1x1_S1x1) broadcasts_S1x1_S8x128 (ix2 a b))
      (Ideal.ofBits .f32 0x00000000#32) = _
  rw [e0, e1, eb, Ideal.ofBits_zero_f32]
  have hA : IntOp.cmpi .eq (BitVec.ofNat 32 a.val) 0#32 = 1#1 ↔ a.val = 0 := by
    rw [StableHlo.Predicate.cmpi_eq_iff]
    constructor
    · intro h
      have := congrArg BitVec.toNat h
      rw [BitVec.toNat_ofNat, Nat.mod_eq_of_lt (by have := a.isLt; omega)] at this
      exact this
    · intro h; rw [h]
  have hB : IntOp.cmpi .eq (BitVec.ofNat 32 b.val) 0#32 = 1#1 ↔ b.val = 0 := by
    rw [StableHlo.Predicate.cmpi_eq_iff]
    constructor
    · intro h
      have := congrArg BitVec.toNat h
      rw [BitVec.toNat_ofNat, Nat.mod_eq_of_lt (by have := b.isLt; omega)] at this
      exact this
    · intro h; rw [h]
  by_cases hab : a.val = 0 ∧ b.val = 0
  · rw [if_pos hab, hA.mpr hab.1, hB.mpr hab.2]
    rfl
  · rw [if_neg hab]
    have hne : ¬ (IntOp.andi (IntOp.cmpi .eq (BitVec.ofNat 32 a.val) 0#32) (IntOp.cmpi .eq (BitVec.ofNat 32 b.val) 0#32) = 1#1) := by
      intro h
      have h2 := IntOp.andi_eq_one.mp h
      exact hab ⟨hA.mp h2.1, hB.mp h2.2⟩
    rw [eq_zero_of_ne_one hne, select_zero]

/-- The lane sum of a [1024, 1000] vector read at row r: the sum over the 1000 columns. -/
theorem rowSum_apply (src : FVec Ideal S1024x1000 .f32) (hacc : (0x00000000#32 : BitVec 32) = 0x00000000#32) (r : Fin 1024) :
    multiReduction (F := Ideal) .add [1] S1024 src 0x00000000#32 reduces_S1024x1000_S1024 (.inl rfl) hacc (ix1 r)
      = ∑ c : Fin 1000, src (ix2 r c) := by
  refine (Ideal.multiReduction_add_single src 0x00000000#32 reduces_S1024x1000_S1024 (.inl rfl) hacc (ix1 r)).trans ?_
  refine Finset.sum_congr rfl fun c _ => congrArg src ?_
  funext d; match d with
  | ⟨0, _⟩ => rfl
  | ⟨1, _⟩ => rfl

/-- The sum of a [1024, 1] column over its rows, read at its one index. -/
theorem colSum_apply (src : FVec Ideal S1024x1 .f32) (hacc : (0x00000000#32 : BitVec 32) = 0x00000000#32) :
    multiReduction (F := Ideal) .add [0] S1 src 0x00000000#32 reduces_S1024x1_S1 (.inl rfl) hacc (ix1 (0 : Fin 1))
      = ∑ r : Fin 1024, src (ix2 r (0 : Fin 1)) := by
  refine (Ideal.multiReduction_add_single src 0x00000000#32 reduces_S1024x1_S1 (.inl rfl) hacc (ix1 (0 : Fin 1))).trans ?_
  refine Finset.sum_congr rfl fun r _ => congrArg src ?_
  funext d; match d with
  | ⟨0, _⟩ => rfl
  | ⟨1, _⟩ => rfl

/-- A [1024] vector viewed as a [1024, 1] column reads, at (r, 0), the vector at r. -/
theorem castCol_apply {α : Type} (v : S1024.Idx → α) (r : Fin 1024) :
    shapeCast S1024x1 v shapeCasts_S1024_S1024x1 (ix2 r (0 : Fin 1)) = v (ix1 r) :=
  shapeCast_apply v _ _ (ix1 r) (by rw [Shape.rowMajor_val_one, Shape.rowMajor_val_two]; show r.val = r.val * 1 + 0; omega)

/-- A [1] vector viewed as [1, 1] reads its one entry. -/
theorem castOne_apply {α : Type} (v : S1.Idx → α) :
    shapeCast S1x1 v shapeCasts_S1_S1x1 (ix2 (0 : Fin 1) (0 : Fin 1)) = v (ix1 (0 : Fin 1)) :=
  shapeCast_apply v _ _ (ix1 (0 : Fin 1)) (by rw [Shape.rowMajor_val_one, Shape.rowMajor_val_two]; rfl)

/-- One trip's arithmetic at the one index of the carried value. -/
theorem pay2_apply (acc : FVec Ideal S1x1 .f32) (v18 : FVec Ideal S1024x1000 .f32) (v21 : IVec S1024x1 32) (v23 : IVec S1x1000 32) :
    k0_pay2 (F := Ideal) acc v18 v21 v23 (ix2 (0 : Fin 1) (0 : Fin 1))
      = acc (ix2 (0 : Fin 1) (0 : Fin 1)) + (0 - ∑ r : Fin 1024, Ideal.log (∑ c : Fin 1000,
          Scalar.select (IntOp.cmpi .eq (v23 (ix2 (0 : Fin 1) c)) (v21 (ix2 r (0 : Fin 1)))) (v18 (ix2 r c)) 0)) := by
  unfold k0_pay2
  dsimp only
  rw [shapeCast_self, shapeCast_self, shapeCast_self]
  rw [addf_apply, subf_apply, broadcast_apply, castOne_apply, colSum_apply]
  show _ + (Ideal.ofBits .f32 0x00000000#32 - _) = _
  rw [Ideal.ofBits_zero_f32]
  congr 2
  refine Finset.sum_congr rfl fun r _ => ?_
  show Ideal.log (shapeCast S1024x1 _ shapeCasts_S1024_S1024x1 (ix2 r (0 : Fin 1))) = _
  rw [castCol_apply, rowSum_apply]
  congr 1
  refine Finset.sum_congr rfl fun c _ => ?_
  show Scalar.select (IntOp.cmpi .eq (broadcastTo S1024x1000 v23 broadcasts_S1x1000_S1024x1000 (ix2 r c))
      (broadcastTo S1024x1000 v21 broadcasts_S1024x1_S1024x1000 (ix2 r c))) (v18 (ix2 r c)) (Ideal.ofBits .f32 0x00000000#32) = _
  rw [Ideal.ofBits_zero_f32,
    broadcastTo_apply v23 broadcasts_S1x1000_S1024x1000 (ix2 r c) (ix2 (0 : Fin 1) c) (fun d => match d with
      | ⟨0, _⟩ => rfl
      | ⟨1, _⟩ => rfl),
    broadcastTo_apply v21 broadcasts_S1024x1_S1024x1000 (ix2 r c) (ix2 r (0 : Fin 1)) (fun d => match d with
      | ⟨0, _⟩ => rfl
      | ⟨1, _⟩ => rfl)]

end Cert.KernelIdeal.NllPay

end
-- ==== Proof.KernelTile.lean ====
/-
  One tile's accumulated value. With the class counter's entry c the word of c and every label of the block below 1000,
  the masked sum of row R is the row's probability at its label, so trip k adds 0 - (the sum over rows
  1024 k … 1024 k + 1023 of the log of that probability), and the two trips from zero give the tile's value.
-/
import proofs.«417511_j49074296324832_3_alg».proof.Proof.KernelPay

set_option maxRecDepth 16384

noncomputable section

namespace Cert.KernelIdeal.NllPay

open Cert.KernelIdeal Cert.KernelIdeal.Gen Cert.KernelIdeal.NllRun
open Idealize.ShloMosaic Idealize.ShloMosaic.ValueIdx

/-- Row r of trip k's slice of the probabilities block is row 1024 k + r of the block. -/
theorem ld_slice0 (x0 : FVec Ideal S2048x1000 .f32) (k : Fin k0_t1_loop.trips) (r : Fin 1024) (c : Fin 1000)
    (hk : 1024 * k.val + r.val < 2048) :
    View.ld (Val := Elt Ideal) (e' := .f32) x0 (slice0 k) (ix2 r c) = x0 (ix2 (⟨1024 * k.val + r.val, hk⟩ : Fin 2048) c) := by
  show x0 ((slice0 k).idx (ix2 r c)) = _
  refine congrArg x0 (funext fun d => Fin.ext ?_)
  match d with
  | ⟨0, _⟩ =>
    show k0_off1 k 0 + 1 * r.val = 1024 * k.val + r.val
    rw [k0_off1_eq k]; show 1024 * k.val + 1 * r.val = _; omega
  | ⟨1, _⟩ =>
    show k0_off1 k 1 + 1 * c.val = c.val
    rw [k0_off1_eq k]; show 0 + 1 * c.val = _; omega

/-- Row r of trip k's slice of the labels block is row 1024 k + r of the block. -/
theorem ld_slice1 (x1 : IVec S2048x1 32) (k : Fin k0_t1_loop.trips) (r : Fin 1024) (hk : 1024 * k.val + r.val < 2048) :
    View.ld (Val := Elt Ideal) (e' := .i32) x1 (slice1 k) (ix2 r (0 : Fin 1)) = x1 (ix2 (⟨1024 * k.val + r.val, hk⟩ : Fin 2048) (0 : Fin 1)) := by
  show x1 ((slice1 k).idx (ix2 r (0 : Fin 1))) = _
  refine congrArg x1 (funext fun d => Fin.ext ?_)
  match d with
  | ⟨0, _⟩ =>
    show k0_off2 k 0 + 1 * r.val = 1024 * k.val + r.val
    rw [k0_off2_eq k]; show 1024 * k.val + 1 * r.val = _; omega
  | ⟨1, _⟩ =>
    show k0_off2 k 1 + 1 * 0 = 0
    rw [k0_off2_eq k]; rfl

/-- The class-counter row is read whole. -/
theorem ld_row2 (x2 : IVec S1x1000 32) (c : Fin 1000) : View.ld (Val := Elt Ideal) (e' := .i32) x2 row2 (ix2 (0 : Fin 1) c) = x2 (ix2 (0 : Fin 1) c) := by
  show x2 (row2.idx (ix2 (0 : Fin 1) c)) = _
  refine congrArg x2 (funext fun d => Fin.ext ?_)
  match d with
  | ⟨0, _⟩ => rfl
  | ⟨1, _⟩ => show 0 + 1 * c.val = c.val; omega

/-- The log of row R's probability at the row's label (labels below 1000). -/
def rowLog (x0 : FVec Ideal S2048x1000 .f32) (x1 : IVec S2048x1 32)
    (hx1 : ∀ R : Fin 2048, (x1 (ix2 R (0 : Fin 1))).toNat < 1000) (R : Fin 2048) : EReal :=
  Ideal.log (x0 (ix2 R (⟨(x1 (ix2 R (0 : Fin 1))).toNat, hx1 R⟩ : Fin 1000)))

/-- One trip adds 0 - (the sum over its 1024 rows of the log of the row's probability at its label). -/
theorem tripVal_apply (x0 : FVec Ideal S2048x1000 .f32) (x1 : IVec S2048x1 32) (x2 : IVec S1x1000 32)
    (hx2 : ∀ c : Fin 1000, x2 (ix2 (0 : Fin 1) c) = BitVec.ofNat 32 c.val)
    (hx1 : ∀ R : Fin 2048, (x1 (ix2 R (0 : Fin 1))).toNat < 1000)
    (k : Fin k0_t1_loop.trips) (hk : k.val < 2) (acc : FVec Ideal S1x1 .f32) :
    tripVal (F := Ideal) x0 x1 x2 k acc (ix2 (0 : Fin 1) (0 : Fin 1))
      = acc (ix2 (0 : Fin 1) (0 : Fin 1))
        + (0 - ∑ r : Fin 1024, rowLog x0 x1 hx1 (⟨1024 * k.val + r.val, by omega⟩ : Fin 2048)) := by
  unfold tripVal
  rw [pay2_apply]
  congr 2
  refine Finset.sum_congr rfl fun r _ => congrArg Ideal.log ?_
  have hr : 1024 * k.val + r.val < 2048 := by omega
  rw [ld_slice1 x1 k r hr]
  have e : ∀ c : Fin 1000, Scalar.select (IntOp.cmpi .eq (View.ld (Val := Elt Ideal) (e' := .i32) x2 row2 (ix2 (0 : Fin 1) c))
        (x1 (ix2 (⟨1024 * k.val + r.val, hr⟩ : Fin 2048) (0 : Fin 1)))) (View.ld (Val := Elt Ideal) (e' := .f32) x0 (slice0 k) (ix2 r c)) (0 : EReal)
      = Scalar.select (IntOp.cmpi .eq (BitVec.ofNat 32 c.val) (x1 (ix2 (⟨1024 * k.val + r.val, hr⟩ : Fin 2048) (0 : Fin 1))))
          (x0 (ix2 (⟨1024 * k.val + r.val, hr⟩ : Fin 2048) c)) 0 := fun c => by
    rw [ld_row2, hx2, ld_slice0 x0 k r c hr]
  rw [Finset.sum_congr rfl fun c _ => e c]
  exact Cert.LibOneHotTake.oneHot_sum (by decide) (fun c : Fin 1000 => x0 (ix2 (⟨1024 * k.val + r.val, hr⟩ : Fin 2048) c)) 0 rfl _ (hx1 _)

/-- The carried value starts at zero. -/
theorem pay1_apply : k0_pay1 (F := Ideal) (ix2 (0 : Fin 1) (0 : Fin 1)) = 0 := by
  show Ideal.ofBits .f32 0x00000000#32 = 0
  exact Ideal.ofBits_zero_f32

/-- The tile's value: the two trips from zero, the first over rows 0 … 1023 and the second over rows 1024 … 2047. -/
theorem tileVal_apply (x0 : FVec Ideal S2048x1000 .f32) (x1 : IVec S2048x1 32) (x2 : IVec S1x1000 32)
    (hx2 : ∀ c : Fin 1000, x2 (ix2 (0 : Fin 1) c) = BitVec.ofNat 32 c.val)
    (hx1 : ∀ R : Fin 2048, (x1 (ix2 R (0 : Fin 1))).toNat < 1000) :
    tileVal (F := Ideal) x0 x1 x2 (ix2 (0 : Fin 1) (0 : Fin 1))
      = (0 + (0 - ∑ r : Fin 1024, rowLog x0 x1 hx1 (⟨r.val, by omega⟩ : Fin 2048)))
        + (0 - ∑ r : Fin 1024, rowLog x0 x1 hx1 (⟨1024 + r.val, by omega⟩ : Fin 2048)) := by
  unfold tileVal
  rw [tripVal_apply x0 x1 x2 hx2 hx1 trip1 (by decide), tripVal_apply x0 x1 x2 hx2 hx1 trip0 (by decide), pay1_apply]
  have hA : ∑ r : Fin 1024, rowLog x0 x1 hx1 (⟨1024 * (trip0).val + r.val, by have := r.isLt; show 1024 * 0 + r.val < 2048; omega⟩ : Fin 2048)
      = ∑ r : Fin 1024, rowLog x0 x1 hx1 (⟨r.val, by omega⟩ : Fin 2048) :=
    Finset.sum_congr rfl fun r _ => congrArg (rowLog x0 x1 hx1) (Fin.ext (by show 1024 * 0 + r.val = r.val; omega))
  have hB : ∑ r : Fin 1024, rowLog x0 x1 hx1 (⟨1024 * (trip1).val + r.val, by have := r.isLt; show 1024 * 1 + r.val < 2048; omega⟩ : Fin 2048)
      = ∑ r : Fin 1024, rowLog x0 x1 hx1 (⟨1024 + r.val, by omega⟩ : Fin 2048) :=
    Finset.sum_congr rfl fun r _ => congrArg (rowLog x0 x1 hx1) (Fin.ext (by show 1024 * 1 + r.val = 1024 + r.val; omega))
  exact congrArg₂ (· + ·) (congrArg (fun s : EReal => 0 + (0 - s)) hA) (congrArg (fun s : EReal => 0 - s) hB)

end Cert.KernelIdeal.NllPay

end
-- ==== Proof.KernelBlocks.lean ====
/-
  The three input blocks of tile t, read off the argument arrays.

  Before the tiles run, the probabilities [64, 512, 1000] are viewed as [32768, 1000] (row n = 512 b + s is position
  (b, s)), the labels are clamped to [0, 999] and viewed as a [32768, 1] column, and the class counter 0 … 999 is laid out
  as a [1, 1000] row. Tile t's blocks are rows 2048 t … 2048 t + 2047 of the first two and the whole of the third.
-/
import proofs.«417511_j49074296324832_3_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.NllBlocks

open Cert.KernelIdeal Cert.KernelIdeal.Gen
open Idealize.ShloMosaic Idealize.ShloMosaic.TcCoe Idealize.ShloMosaic.ValueIdx Idealize.ShloMosaic.StableHlo
open Idealize.SL Idealize.SL.Sem

variable {F : FTy → Type} [FloatOps F]
variable (m : (ℓ : Loc nD τ sig) → Buf (Elt F) ℓ)

/-- The probabilities as the tiles find them: the argument viewed as [32768, 1000]. -/
theorem V_probs (c : Dev nD) : (V m c main_v0 : S32768x1000.Idx → Elt F .f32)
    = shapeCast S32768x1000 (m ((c : Thread nD τ).loc main_arg0)) shapeCasts_S64x512x1000_S32768x1000 := by
  dsimp only [V, V0]
  simp only [hostOps0, hostOps0_1, hostOps0_2, List.flatten_cons, List.flatten_nil, List.append_nil, List.cons_append, List.nil_append]
  after_results
  rfl

/-- The labels as the tiles find them: clamped to [0, 999] and viewed as a [32768, 1] column. -/
theorem V_labels (c : Dev nD) : (V m c main_v2 : S32768x1.Idx → Elt F .i32)
    = shapeCast S32768x1 (minsi (broadcastInDim S64x512 ![] bcast_S_S64x512 (constantI S_ 32 999#32))
        (maxsi (broadcastInDim S64x512 ![] bcast_S_S64x512 (constantI S_ 32 0#32)) (m ((c : Thread nD τ).loc main_arg1))))
        shapeCasts_S64x512_S32768x1 := by
  dsimp only [V, V0]
  simp only [hostOps0, hostOps0_1, hostOps0_2, List.flatten_cons, List.flatten_nil, List.append_nil, List.cons_append, List.nil_append]
  after_results
  rfl

/-- The class counter as the tiles find it: 0 … 999 as a [1, 1000] row. -/
theorem V_iota (c : Dev nD) : (V m c main_v4 : S1x1000.Idx → Elt F .i32)
    = shapeCast S1x1000 (iotaInDim S1000 32 0) shapeCasts_S1000_S1x1000 := by
  dsimp only [V, V0]
  simp only [hostOps0, hostOps0_1, hostOps0_2, List.flatten_cons, List.flatten_nil, List.append_nil, List.cons_append, List.nil_append]
  after_results
  rfl

/-- The windows' block indices at every tile: tile t's probability and label blocks are block t along the rows, the class
    counter's block never moves, and the output's block is block t along the rows. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem N_eq : cfg0.N = 16 := N_0

/-- Tile t's blocks, named at their literal types. -/
abbrev probsBlk (c : Dev nD) (t : Fin cfg0.N) : Vec F S2048x1000 .f32 := iblk m c 0 t
abbrev labelsBlk (c : Dev nD) (t : Fin cfg0.N) : Vec F S2048x1 .i32 := iblk m c 1 t
abbrev iotaBlk (c : Dev nD) (t : Fin cfg0.N) : Vec F S1x1000 .i32 := iblk m c 2 t

/-- Row R of tile t's probabilities block is row 2048 t + R of the array. -/
theorem probsBlk_apply (c : Dev nD) (t : Fin cfg0.N) (R : Fin 2048) (k : Fin 1000) (h : 2048 * t.val + R.val < 32768) :
    probsBlk m c t (ix2 R k) = V m c main_v0 (ix2 ⟨2048 * t.val + R.val, h⟩ k) := by
  obtain ⟨e0, e1, -⟩ := idx_facts t
  show V m c main_v0 (((cfg0.win 0).blk t).view.emb (ix2 R k)) = _
  refine congrArg (V m c main_v0) (funext fun a => Fin.ext ?_)
  match a with
  | ⟨0, _⟩ => show win0_0.index t (0 : Fin 2) * 2048 + 1 * R.val = 2048 * t.val + R.val; omega
  | ⟨1, _⟩ => show win0_0.index t (1 : Fin 2) * 1000 + 1 * k.val = k.val; omega

/-- Row R of tile t's labels block is row 2048 t + R of the column. -/
theorem labelsBlk_apply (c : Dev nD) (t : Fin cfg0.N) (R : Fin 2048) (h : 2048 * t.val + R.val < 32768) :
    labelsBlk m c t (ix2 R (0 : Fin 1)) = V m c main_v2 (ix2 ⟨2048 * t.val + R.val, h⟩ (0 : Fin 1)) := by
  obtain ⟨-, -, e0, e1, -⟩ := idx_facts t
  show V m c main_v2 (((cfg0.win 1).blk t).view.emb (ix2 R (0 : Fin 1))) = _
  refine congrArg (V m c main_v2) (funext fun a => Fin.ext ?_)
  match a with
  | ⟨0, _⟩ => show win0_1.index t (0 : Fin 2) * 2048 + 1 * R.val = 2048 * t.val + R.val; omega
  | ⟨1, _⟩ => show win0_1.index t (1 : Fin 2) * 1 + 1 * 0 = 0; omega

/-- The class counter's block is the whole row. -/
theorem iotaBlk_apply (c : Dev nD) (t : Fin cfg0.N) (k : Fin 1000) :
    iotaBlk m c t (ix2 (0 : Fin 1) k) = V m c main_v4 (ix2 (0 : Fin 1) k) := by
  obtain ⟨-, -, -, -, e0, e1, -⟩ := idx_facts t
  show V m c main_v4 (((cfg0.win 2).blk t).view.emb (ix2 (0 : Fin 1) k)) = _
  refine congrArg (V m c main_v4) (funext fun a => Fin.ext ?_)
  match a with
  | ⟨0, _⟩ => show win0_2.index t (0 : Fin 2) * 1 + 1 * 0 = 0; omega
  | ⟨1, _⟩ => show win0_2.index t (1 : Fin 2) * 1000 + 1 * k.val = k.val; omega

/-- Row n of the viewed probabilities is position (n / 512, n % 512) of the argument. -/
theorem probs_at (c : Dev nD) (n : Fin 32768) (k : Fin 1000) :
    V m c main_v0 (ix2 n k)
      = m ((c : Thread nD τ).loc main_arg0) (ix3 (⟨n.val / 512, by omega⟩ : Fin 64) (⟨n.val % 512, Nat.mod_lt _ (by decide)⟩ : Fin 512) k) := by
  rw [V_probs]
  exact shapeCast_apply _ _ _ _ (by
    show (S64x512x1000.rowMajor (ix3 (⟨n.val / 512, by omega⟩ : Fin 64) (⟨n.val % 512, Nat.mod_lt _ (by decide)⟩ : Fin 512) k)).val
      = (S32768x1000.rowMajor (ix2 n k)).val
    rw [Shape.rowMajor_val_three, Shape.rowMajor_val_two]
    show (n.val / 512 * 512 + n.val % 512) * 1000 + k.val = n.val * 1000 + k.val
    omega)

/-- Row n of the label column is the clamped label of position (n / 512, n % 512). -/
theorem labels_at (c : Dev nD) (n : Fin 32768) :
    V m c main_v2 (ix2 n (0 : Fin 1))
      = IntOp.minsi 999#32 (IntOp.maxsi 0#32
          (m ((c : Thread nD τ).loc main_arg1) (ix2 (⟨n.val / 512, by omega⟩ : Fin 64) (⟨n.val % 512, Nat.mod_lt _ (by decide)⟩ : Fin 512)))) := by
  rw [V_labels]
  refine (shapeCast_apply _ _ _ (ix2 (⟨n.val / 512, by omega⟩ : Fin 64) (⟨n.val % 512, Nat.mod_lt _ (by decide)⟩ : Fin 512)) (by
    show (S64x512.rowMajor (ix2 (⟨n.val / 512, by omega⟩ : Fin 64) (⟨n.val % 512, Nat.mod_lt _ (by decide)⟩ : Fin 512))).val
      = (S32768x1.rowMajor (ix2 n (0 : Fin 1))).val
    rw [Shape.rowMajor_val_two, Shape.rowMajor_val_two]
    show n.val / 512 * 512 + n.val % 512 = n.val * 1 + 0
    omega)).trans ?_
  rfl

/-- Entry k of the class-counter row is the word of k. -/
theorem iota_at (c : Dev nD) (k : Fin 1000) : V m c main_v4 (ix2 (0 : Fin 1) k) = BitVec.ofNat 32 k.val := by
  rw [V_iota]
  refine (shapeCast_apply _ _ _ (ix1 k) (by
    show (S1000.rowMajor (ix1 k)).val = (S1x1000.rowMajor (ix2 (0 : Fin 1) k)).val
    rw [Shape.rowMajor_val_one, Shape.rowMajor_val_two]
    show k.val = 0 * 1000 + k.val
    omega)).trans ?_
  rfl

end Cert.KernelIdeal.NllBlocks

end
-- ==== Proof.KernelValue.lean ====
/-
  The kernel's result. Tile t leaves in its [8, 128] output block the tile's accumulated value at (0, 0) and zero
  elsewhere; the sixteen blocks tile the [128, 128] array of partial losses, block t being rows 8 t … 8 t + 7; and the
  host's closing sum, from zero, of that array is the program's result.
-/
import proofs.«417511_j49074296324832_3_alg».proof.Proof.KernelTile
import proofs.«417511_j49074296324832_3_alg».proof.Proof.KernelBlocks
import proofs.«417511_j49074296324832_3_alg».proof.Proof.Spec
import Idealize.ShloMosaic.Lib.StableHlo.Run
import Idealize.ShloMosaic.Lib.StableHlo.Predicate

set_option maxRecDepth 16384

noncomputable section

namespace Cert.KernelIdeal.NllValue

open Cert.KernelIdeal Cert.KernelIdeal.Gen Cert.KernelIdeal.NllRun Cert.KernelIdeal.NllPay Cert.KernelIdeal.NllBlocks
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The probabilities and the labels the program is launched with. -/
abbrev X (c : Dev nD) : Cert.Nll.SX.Idx → EReal := m ((c : Thread nD τ).loc main_arg0)
abbrev T (c : Dev nD) : Cert.Nll.ST.Idx → BitVec 32 := m ((c : Thread nD τ).loc main_arg1)

/-- The clamp to [0, 999] leaves a word below 1000 as it is. -/
theorem clamp_small (w : BitVec 32) (h : w.toNat < 1000) : IntOp.minsi 999#32 (IntOp.maxsi 0#32 w) = w := by
  have hti : w.toInt = w.toNat := StableHlo.Predicate.toInt_eq_toNat_of_lt (by omega)
  have h0 : (0#32 : BitVec 32).toInt = 0 := by decide
  have h9 : (999#32 : BitVec 32).toInt = 999 := by decide
  have hmax : IntOp.maxsi 0#32 w = w := by
    unfold IntOp.maxsi
    have hn : ¬ (w.slt 0#32 = true) := by
      simp only [BitVec.slt, hti, h0, decide_eq_true_eq]; omega
    rw [if_neg hn]
  rw [hmax]
  unfold IntOp.minsi
  have hn : ¬ ((999#32 : BitVec 32).slt w = true) := by
    simp only [BitVec.slt, hti, h9, decide_eq_true_eq]; omega
  rw [if_neg hn]

/-- Row R of tile t's label block is the label of position ((2048 t + R) / 512, (2048 t + R) % 512). -/
theorem label_row (c : Dev nD) (t : Fin cfg0.N) (hT : ∀ j, (T m c j).toNat < 1000) (R : Fin 2048) (hn : 2048 * t.val + R.val < 32768) :
    labelsBlk m c t (ix2 R (0 : Fin 1))
      = T m c (ix2 (⟨(2048 * t.val + R.val) / 512, by omega⟩ : Fin 64) (⟨(2048 * t.val + R.val) % 512, Nat.mod_lt _ (by decide)⟩ : Fin 512)) := by
  rw [labelsBlk_apply m c t R hn, labels_at]
  exact clamp_small _ (hT _)

/-- The log of row R's probability at its label is the log-probability of flattened row 2048 t + R. -/
theorem row_value (c : Dev nD) (t : Fin cfg0.N) (hT : ∀ j, (T m c j).toNat < 1000)
    (hx1 : ∀ R : Fin 2048, (labelsBlk m c t (ix2 R (0 : Fin 1))).toNat < 1000) (R : Fin 2048) :
    rowLog (probsBlk m c t) (labelsBlk m c t) hx1 R = Cert.Nll.logpRow (X m c) (T m c) (2048 * t.val + R.val) := by
  have ht : t.val < 16 := lt_of_lt_of_eq t.isLt N_eq
  have hn : 2048 * t.val + R.val < 32768 := by omega
  unfold rowLog Cert.Nll.logpRow
  rw [dif_pos hn]
  unfold Cert.Nll.logp
  refine congrArg Ideal.log ?_
  rw [probsBlk_apply m c t R _ hn, probs_at]
  refine congrArg (m ((c : Thread nD τ).loc main_arg0)) ?_
  refine congrArg (ix3 _ _) (Fin.ext ?_)
  show (labelsBlk m c t (ix2 R (0 : Fin 1))).toNat = (Cert.Nll.col _).val
  rw [Cert.Nll.col_val_of_lt (hT _), label_row m c t hT R hn]

/-- Tile t's accumulated value. -/
theorem tile_value (c : Dev nD) (t : Fin cfg0.N) (hT : ∀ j, (T m c j).toNat < 1000) :
    tileVal (F := Ideal) (probsBlk m c t) (labelsBlk m c t) (iotaBlk m c t) (ix2 (0 : Fin 1) (0 : Fin 1))
      = Cert.Nll.tileAcc (X m c) (T m c) t.val := by
  have ht : t.val < 16 := lt_of_lt_of_eq t.isLt N_eq
  have hx1 : ∀ R : Fin 2048, (labelsBlk m c t (ix2 R (0 : Fin 1))).toNat < 1000 := fun R => by
    rw [label_row m c t hT R (by omega)]; exact hT _
  have hx2 : ∀ k : Fin 1000, iotaBlk m c t (ix2 (0 : Fin 1) k) = BitVec.ofNat 32 k.val := fun k => by
    rw [iotaBlk_apply, iota_at]
  rw [tileVal_apply _ _ _ hx2 hx1]
  unfold Cert.Nll.tileAcc
  have e0 : ∀ r : Fin 1024, rowLog (probsBlk m c t) (labelsBlk m c t) hx1 (⟨r.val, by omega⟩ : Fin 2048)
      = Cert.Nll.logpRow (X m c) (T m c) (2048 * t.val + r.val) := fun r => row_value m c t hT hx1 _
  have e1 : ∀ r : Fin 1024, rowLog (probsBlk m c t) (labelsBlk m c t) hx1 (⟨1024 + r.val, by omega⟩ : Fin 2048)
      = Cert.Nll.logpRow (X m c) (T m c) (2048 * t.val + 1024 + r.val) := fun r => by
    rw [row_value m c t hT hx1 _]
    show Cert.Nll.logpRow (X m c) (T m c) (2048 * t.val + (1024 + r.val)) = _
    rw [Nat.add_assoc]
  rw [Finset.sum_congr rfl fun r _ => e0 r, Finset.sum_congr rfl fun r _ => e1 r]

/-- The array of partial losses at an index whose row is 8 i + a, a < 8, and whose column is b. -/
theorem partials_at (x : Cert.Nll.SX.Idx → EReal) (t : Cert.Nll.ST.Idx → BitVec 32) (p : Cert.Nll.SOut.Idx) (i a b : ℕ)
    (h0 : (p 0).val = 8 * i + a) (h1 : (p 1).val = b) (ha : a < 8) :
    Cert.Nll.partials x t p = if a = 0 ∧ b = 0 then Cert.Nll.tileAcc x t i else 0 := by
  unfold Cert.Nll.partials
  rw [h0, h1]
  have e : (8 * i + a) % 8 = 0 ↔ a = 0 := by omega
  by_cases hab : a = 0 ∧ b = 0
  · rw [if_pos hab, if_pos ⟨e.mpr hab.1, hab.2⟩]
    have : (8 * i + a) / 8 = i := by omega
    rw [this]
  · rw [if_neg hab, if_neg (fun h => hab ⟨e.mp h.1, h.2⟩)]

/-- WHAT TILE t WRITES BACK is block t of the array of partial losses. -/
theorem flushed_eq (c : Dev nD) (t : Fin cfg0.N) (hT : ∀ j, (T m c j).toNat < 1000) :
    (dats m 0 c).flushed 3 t = ((cfg0.win 3).blk t).view.read (Elt Ideal) (Cert.Nll.partials (X m c) (T m c)) := by
  show (cfg0.win 3).cut (grid0.coords t) ((dats m 0 c).after 3 t) = _
  rw [after0_3]
  have hout : outsAt0 m c t = k0_pay3 (tileVal (probsBlk m c t) (labelsBlk m c t) (iotaBlk m c t)) :=
    out_eq (F := Ideal) c (grid0.coords t) (ms0_0 t) (hs0_0 t) (ms0_1 t) (hs0_1 t) (ms0_2 t) (hs0_2 t) (ms0_3 t) (hs0_3 t)
      (iblk m c 0 t) (iblk m c 1 t) (iblk m c 2 t)
  rw [hout]
  obtain ⟨-, -, -, -, -, -, e0, e1⟩ := idx_facts t
  funext y
  obtain ⟨a, b, rfl⟩ : ∃ (a : Fin 8) (b : Fin 128), y = ix2 a b := ⟨y 0, y 1, eq_ix2 y⟩
  show k0_pay3 (tileVal (probsBlk m c t) (labelsBlk m c t) (iotaBlk m c t)) (ix2 a b)
    = Cert.Nll.partials (X m c) (T m c) (((cfg0.win 3).blk t).view.emb (ix2 a b))
  rw [pay3_apply, partials_at (X m c) (T m c) _ t.val a.val b.val
    (by show win0_3.index t (0 : Fin 2) * 8 + 1 * a.val = 8 * t.val + a.val; omega)
    (by show win0_3.index t (1 : Fin 2) * 128 + 1 * b.val = b.val; omega) a.isLt,
    tile_value m c t hT]

/-- An index of the array is in tile t's block iff each coordinate is in the block's range on its axis. -/
theorem mem_blk3 (t : Fin cfg0.N) (i : S128x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v5).slice (win0_3.rect t)).set ↔ _
  rw [View.set_slice_whole, Rect.mem_set_unit]
  exact Iff.rfl

/-- Every index of the array is in the block of the tile its row belongs to. -/
theorem cover3 (i : S128x128.Idx) : ∃ t : Fin cfg0.N, (cfg0.win 3).flush t = true ∧ i ∈ ((cfg0.win 3).blk t).view.set := by
  have hi0 : (i 0).val < 128 := (i 0).isLt
  have hi1 : (i 1).val < 128 := (i 1).isLt
  have hlt : (i 0).val / 8 < cfg0.N := by rw [N_eq]; omega
  obtain ⟨-, -, -, -, -, -, e0, e1⟩ := idx_facts ⟨(i 0).val / 8, hlt⟩
  refine ⟨⟨(i 0).val / 8, hlt⟩, flush0_3 _, ?_⟩
  rw [mem_blk3]
  intro a
  match a with
  | ⟨0, _⟩ =>
    show win0_3.index ⟨(i 0).val / 8, hlt⟩ (0 : Fin 2) * 8 ≤ (i 0).val ∧ (i 0).val < win0_3.index ⟨(i 0).val / 8, hlt⟩ (0 : Fin 2) * 8 + 8
    rw [e0]; show (i 0).val / 8 * 8 ≤ (i 0).val ∧ (i 0).val < (i 0).val / 8 * 8 + 8; omega
  | ⟨1, _⟩ =>
    show win0_3.index ⟨(i 0).val / 8, hlt⟩ (1 : Fin 2) * 128 ≤ (i 1).val ∧ (i 1).val < win0_3.index ⟨(i 0).val / 8, hlt⟩ (1 : Fin 2) * 128 + 128
    rw [e1]; omega

/-- THE ARRAY after the tiles: the array of partial losses. -/
theorem final3 (c : Dev nD) (hT : ∀ j, (T m c j).toNat < 1000) :
    (dats m 0 c).arrAt 3 cfg0.N = Cert.Nll.partials (X m c) (T m c) :=
  (dats m 0 c).arrAt_eq_of_cover 3 (Cert.Nll.partials (X m c) (T m c)) (fun t _ => flushed_eq m c t hT) cover3

/-- The host's closing sum of the array the tiles leave. -/
theorem tail_value (c : Dev nD) (hT : ∀ j, (T m c j).toNat < 1000) :
    Pipeline.afterTail₀ cfgs (dats m) 0 (V0 m) [hostOps1] c main_v6
      = fun _ => (0 : EReal) + ∑ p : Cert.Nll.SOut.Idx, Cert.Nll.partials (X m c) (T m c) p := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = Cert.Nll.partials (X m c) (T m c) :=
    (Pipeline.withArrays_arr spec0 launch0.win.arr_inj c _ _ 3).trans (final3 m c hT)
  rw [hw]
  funext i
  simp only [Host.reduceAdd, Ideal.hostReduceAdd_def]
  refine (Ideal.hostReduceAdd_total reducesTo_S128x128_S_d0_1 (fun b => b.elim0) _ _ i).trans ?_
  congr 1
  exact Ideal.ofBits_zero_f32

/-- THE RUN: every execution ends with the result buffer at the host's sum, from zero, of the array of partial losses,
    and with the arguments as they were. -/
theorem kernel_run (hT : ∀ c j, (T m c j).toNat < 1000) :
    θ_run defs (onTc (τ := τ) (main (F := Ideal))) ⟨m, fun _ => 0, ρ⟩ fun r => ∀ c : Dev nD,
      r.2.mem ((c.tc : Thread nD τ).loc main_v6) = (fun _ => (0 : EReal) + ∑ p : Cert.Nll.SOut.Idx, Cert.Nll.partials (X m c) (T m c) p)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_value m c (hT c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.NllValue

end
-- ==== Proof.lean ====
/-
  A negative log-likelihood loss, kernel against reference, over the extended reals.

  Inputs: probabilities x [64, 512, 1000] and labels t [64, 512]. The reference takes, at every position (b, s), the
  entry x[b, s, t[b, s]] with a gather along the last axis, and returns minus the sum of the 32768 logs. The kernel views
  x as 32768 rows, clamps the labels to [0, 999], and runs sixteen tiles of 2048 rows; a tile picks each row's entry as the
  row summed against the one-hot mask "the class counter equals the label", takes logs, and accumulates
  0 - (the sum over 1024 rows) twice from zero; it stores that value at one entry of an [8, 128] block of zeros, and the
  host sums the [128, 128] array of blocks.

  The precondition says every probability is finite and every label lies in [0, 1000). For such labels the reference's
  wrap of negative labels and its in-range mask are the identity and all ones, the gather reads x[b, s, t[b, s]], the
  kernel's clamp is the identity and its masked row sum is the same entry. Both sides are then sums of the same 32768
  logs, grouped differently and with the sign taken before or after summing. On the extended reals sums may be regrouped
  freely, and the sign passes through a sum as soon as no term is +∞: a log is +∞ only at +∞, which finiteness of the
  probabilities excludes (a log may well be -∞, at a zero probability; that is harmless).

  Frames: the kernel's two frames are the generated ones; the reference's is its run with the result dropped.
-/
import proofs.«417511_j49074296324832_3_alg».proof.Defs
import proofs.«417511_j49074296324832_3_alg».proof.Proof.Gen.Kernel
import proofs.«417511_j49074296324832_3_alg».proof.Proof.Gen.Kernel.Frame
import proofs.«417511_j49074296324832_3_alg».proof.Proof.Gen.KernelIdeal
import proofs.«417511_j49074296324832_3_alg».proof.Proof.Gen.KernelIdeal.Frame
import proofs.«417511_j49074296324832_3_alg».proof.Proof.Gen.ReferenceIdeal
import proofs.«417511_j49074296324832_3_alg».proof.Proof.Gen.Pre_finite_inputs
import proofs.«417511_j49074296324832_3_alg».proof.Proof.RefRead
import proofs.«417511_j49074296324832_3_alg».proof.Proof.PreDecode
import proofs.«417511_j49074296324832_3_alg».proof.Proof.RefValue
import proofs.«417511_j49074296324832_3_alg».proof.Proof.Algebra
import proofs.«417511_j49074296324832_3_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Under the precondition both programs end with the loss of their (agreeing) arguments. -/
theorem algebraic : Cert.algebraic_KernelIdeal_ReferenceIdeal := by
  intro m ρ m' ρ' hpre hagree
  have hdec := fun c => Cert.Nll.pre_decode _ _ (hpre c)
  have hT : ∀ c j, (Cert.KernelIdeal.NllValue.T m c j).toNat < 1000 := fun c => (hdec c).2
  refine ⟨fun c => fun _ => Cert.Nll.loss (Cert.KernelIdeal.NllValue.X m c) (Cert.KernelIdeal.NllValue.T m c), ?_, ?_⟩
  · refine (θ_run Cert.KernelIdeal.defs _ _).mono (fun r h c => ⟨(h c).1.trans ?_, (h c).2⟩)
      (Cert.KernelIdeal.NllValue.kernel_run m ρ hT)
    funext _
    exact Cert.Nll.partials_total _ _ (fun b s => Cert.Nll.log_ne_top ((hdec c).1 _).1)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v5_eq, (hagree c).1, (hagree c).2]
    exact Cert.Nll.ref_value _ _ (hT c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
